-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x1024 : Shape := ⟨2, ![4096, 1024]⟩
abbrev S512x128 : Shape := ⟨2, ![512, 128]⟩
abbrev S1024x128 : Shape := ⟨2, ![1024, 128]⟩
abbrev S4096x128 : Shape := ⟨2, ![4096, 128]⟩
abbrev S4096 : Shape := ⟨1, ![4096]⟩
abbrev S1x512 : Shape := ⟨2, ![1, 512]⟩
abbrev S1x1024 : Shape := ⟨2, ![1, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S512x128 : S_.BroadcastsInDim S512x128 (![] : Fin 0 → Fin S512x128.rank)
  reducesTo_S512x128_S_d0_1 : S512x128.ReducesTo [0, 1] S_
  bcast_S_S1024x128 : S_.BroadcastsInDim S1024x128 (![] : Fin 0 → Fin S1024x128.rank)
  reducesTo_S1024x128_S_d0_1 : S1024x128.ReducesTo [0, 1] S_
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_
  bcast_S_S1x512 : S_.BroadcastsInDim S1x512 (![] : Fin 0 → Fin S1x512.rank)
  reducesTo_S1x512_S_d0_1 : S1x512.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  main_v53

def fn_part2 {F : FTy → Type} [FloatOps F] (main_arg7 : FVec F S4096 .f32) (main_arg8 : FVec F S4096 .f32) (main_arg9 : FVec F S1x512 .f32) (main_arg10 : FVec F S1x1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1x512 .f32 := Host.absf main_arg9
  let main_cst_16 : FVec F S_ .f32 := constant S_ .f32 0x7F800000#32
  let main_v45 : FVec F S1x512 .f32 := broadcastInDim S1x512 ![] bcast_S_S1x512 main_cst_16
  let main_v46 : IVec S1x512 1 := cmpf .olt main_v44 main_v45
  let main_c_17 : IVec S_ 1 := constantI S_ 1 1#1
  let main_v47 : IVec S_ 1 := (fun x v => Host.reduce IntOp.andi x v reducesTo_S1x512_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_v48 main_v49 main_v50

def fn_part1 {F : FTy → Type} [FloatOps F] (main_arg4 : FVec F S1024x128 .f32) (main_arg5 : FVec F S4096x128 .f32) (main_arg6 : FVec F S4096x128 .f32) (main_arg7 : FVec F S4096 .f32) (main_arg8 : FVec F S4096 .f32) (main_arg9 : FVec F S1x512 .f32) (main_arg10 : FVec F S1x1024 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S1024x128 .f32 := Host.absf main_arg4
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S4096x128 .f32 := Host.absf main_arg5
  let main_cst_8 : FVec F S_ .f32 := constant S_ .f32 0x7F800000#32
  let main_v25 : FVec F S4096x128 .f32 := broadcastInDim S4096x128 ![] bcast_S_S4096x128 main_cst_8
  let main_v26 : IVec S4096x128 1 := cmpf .olt main_v24 main_v25
  let main_c_9 : IVec S_ 1 := constantI S_ 1 1#1
  let main_v27 : IVec S_ 1 := (fun x v => Host.reduce IntOp.andi x v reducesTo_S4096x128_S_d0_1 h_S_) main_v26 main_c_9
  let main_v28 : IVec S_ 1 := andi main_v23 main_v27
  let main_v29 : FVec F S4096x128 .f32 := Host.absf main_arg6
  let main_cst_10 : FVec F S_ .f32 := constant S_ .f32 0x7F800000#32
  let main_v30 : FVec F S4096x128 .f32 := broadcastInDim S4096x128 ![] bcast_S_S4096x128 main_cst_10
  let main_v31 : IVec S4096x128 1 := cmpf .olt main_v29 main_v30
  let main_c_11 : IVec S_ 1 := constantI S_ 1 1#1
  let main_v32 : IVec S_ 1 := (fun x v => Host.reduce IntOp.andi x v reducesTo_S4096x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x512 .f32) (main_arg1 : FVec F S4096x1024 .f32) (main_arg2 : FVec F S4096x1024 .f32) (main_arg3 : FVec F S512x128 .f32) (main_arg4 : FVec F S1024x128 .f32) (main_arg5 : FVec F S4096x128 .f32) (main_arg6 : FVec F S4096x128 .f32) (main_arg7 : FVec F S4096 .f32) (main_arg8 : FVec F S4096 .f32) (main_arg9 : FVec F S1x512 .f32) (main_arg10 : FVec F S1x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_arg9 main_arg10 main_v13 main_v16
-- ==== Kernel.lean ====
abbrev S4096x512 : Shape := ⟨2, ![4096, 512]⟩
abbrev S4096x1024 : Shape := ⟨2, ![4096, 1024]⟩
abbrev S512x128 : Shape := ⟨2, ![512, 128]⟩
abbrev S1024x128 : Shape := ⟨2, ![1024, 128]⟩
abbrev S4096x128 : Shape := ⟨2, ![4096, 128]⟩
abbrev S4096 : Shape := ⟨1, ![4096]⟩
abbrev S1x512 : Shape := ⟨2, ![1, 512]⟩
abbrev S1x1024 : Shape := ⟨2, ![1, 1024]⟩
abbrev S_ : Shape := ⟨0, ![]⟩
abbrev S4x1024x128 : Shape := ⟨3, ![4, 1024, 128]⟩
abbrev S1x512x128 : Shape := ⟨3, ![1, 512, 128]⟩
abbrev S4x512x128 : Shape := ⟨3, ![4, 512, 128]⟩
abbrev S4x512 : Shape := ⟨2, ![4, 512]⟩
abbrev S4x1024 : Shape := ⟨2, ![4, 1024]⟩
abbrev S1x1024x128 : Shape := ⟨3, ![1, 1024, 128]⟩
abbrev S1x4096 : Shape := ⟨2, ![1, 4096]⟩
abbrev S128x4096 : Shape := ⟨2, ![128, 4096]⟩
abbrev S256x1024 : Shape := ⟨2, ![256, 1024]⟩
abbrev S256x512 : Shape := ⟨2, ![256, 512]⟩
abbrev S256x128 : Shape := ⟨2, ![256, 128]⟩
abbrev S128x1024 : Shape := ⟨2, ![128, 1024]⟩

abbrev nBuf : Space → Nat
  | .hbm => 43
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S512x128, .f32⟩
  | .hbm, ⟨4, _⟩ => ⟨S1024x128, .f32⟩
  | .hbm, ⟨5, _⟩ => ⟨S4096x128, .f32⟩
  | .hbm, ⟨6, _⟩ => ⟨S4096x128, .f32⟩
  | .hbm, ⟨7, _⟩ => ⟨S4096, .f32⟩
  | .hbm, ⟨8, _⟩ => ⟨S4096, .f32⟩
  | .hbm, ⟨9, _⟩ => ⟨S1x512, .f32⟩
  | .hbm, ⟨10, _⟩ => ⟨S1x1024, .f32⟩
  | .hbm, ⟨11, _⟩ => ⟨S_, .i32⟩
  | .hbm, ⟨12, _⟩ => ⟨S_, .f32⟩
  | .hbm, ⟨13, _⟩ => ⟨S4096x1024, .f32⟩
  | .hbm, ⟨14, _⟩ => ⟨S4x1024x128, .f32⟩
  | .hbm, ⟨15, _⟩ => ⟨S1x512x128, .f32⟩
  | .hbm, ⟨16, _⟩ => ⟨S4x512x128, .f32⟩
  | .hbm, ⟨17, _⟩ => ⟨S4x512x128, .f32⟩
  | .hbm, ⟨18, _⟩ => ⟨S4x512x128, .f32⟩
  | .hbm, ⟨19, _⟩ => ⟨S_, .f32⟩
  | .hbm, ⟨20, _⟩ => ⟨S4x512, .f32⟩
  | .hbm, ⟨21, _⟩ => ⟨S_, .i32⟩
  | .hbm, ⟨22, _⟩ => ⟨S_, .f32⟩
  | .hbm, ⟨23, _⟩ => ⟨S4x1024, .f32⟩
  | .hbm, ⟨24, _⟩ => ⟨S4x1024x128, .f32⟩
  | .hbm, ⟨25, _⟩ => ⟨S1x1024x128, .f32⟩
  | .hbm, ⟨26, _⟩ => ⟨S4x1024x128, .f32⟩
  | .hbm, ⟨27, _⟩ => ⟨S4x1024x128, .f32⟩
  | .hbm, ⟨28, _⟩ => ⟨S_, .f32⟩
  | .hbm, ⟨29, _⟩ => ⟨S4x1024, .f32⟩
  | .hbm, ⟨30, _⟩ => ⟨S_, .i32⟩
  | .hbm, ⟨31, _⟩ => ⟨S_, .f32⟩
  | .hbm, ⟨32, _⟩ => ⟨S1x1024, .f32⟩
  | .hbm, ⟨33, _⟩ => ⟨S1x4096, .f32⟩
  | .hbm, ⟨34, _⟩ => ⟨S1x4096, .f32⟩
  | .hbm, ⟨35, _⟩ => ⟨S512x128, .bf16⟩
  | .hbm, ⟨36, _⟩ => ⟨S1024x128, .bf16⟩
  | .hbm, ⟨37, _⟩ => ⟨S128x4096, .f32⟩
  | .hbm, ⟨38, _⟩ => ⟨S128x4096, .bf16⟩
  | .hbm, ⟨39, _⟩ => ⟨S128x4096, .f32⟩
  | .hbm, ⟨40, _⟩ => ⟨S128x4096, .bf16⟩
  | .hbm, ⟨41, _⟩ => ⟨S4096x1024, .f32⟩
  | .hbm, ⟨42, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S512x128, .bf16⟩
  | .local _ .vmem, ⟨7, _⟩ => ⟨S128x4096, .bf16⟩
  | .local _ .vmem, ⟨8, _⟩ => ⟨S1024x128, .bf16⟩
  | .local _ .vmem, ⟨9, _⟩ => ⟨S128x4096, .bf16⟩
  | .local _ .vmem, ⟨10, _⟩ => ⟨S1x4096, .f32⟩
  | .local _ .vmem, ⟨11, _⟩ => ⟨S1x4096, .f32⟩
  | .local _ .vmem, ⟨12, _⟩ => ⟨S4x1024, .f32⟩
  | .local _ .vmem, ⟨13, _⟩ => ⟨S4x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_c_0 : Ref sig .tc := ⟨.hbm, 21, rfl⟩
abbrev main_call1_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_c_2 : Ref sig .tc := ⟨.hbm, 30, rfl⟩
abbrev main_call2_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22_0 : Ref sig .tc := ⟨.hbm, 41, rfl⟩
abbrev main_v22_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  pads_S4096x512_S4096x1024_000_05120 : S4096x512.Pads (![0, 0] : Fin 2 → Nat) ![0, 512] ![0, 0] S4096x1024
  h_S_ : 0 < S_.numel
  shapeCasts_S4096x128_S4x1024x128 : S4096x128.ShapeCasts S4x1024x128
  bcast_S512x128_S1x512x128_1_2 : S512x128.BroadcastsInDim S1x512x128 (![1, 2] : Fin 2 → Fin S1x512x128.rank)
  slices_S4x1024x128_S4x512x128_0_0_0 : S4x1024x128.Slices ![0, 0, 0] S4x512x128
  bcast_S1x512x128_S4x512x128_0_1_2 : S1x512x128.BroadcastsInDim S4x512x128 (![0, 1, 2] : Fin 3 → Fin S4x512x128.rank)
  reducesTo_S4x512x128_S4x512_d2 : S4x512x128.ReducesTo [2] S4x512
  pads_S4x512_S4x1024_000_05120 : S4x512.Pads (![0, 0] : Fin 2 → Nat) ![0, 512] ![0, 0] S4x1024
  bcast_S1024x128_S1x1024x128_1_2 : S1024x128.BroadcastsInDim S1x1024x128 (![1, 2] : Fin 2 → Fin S1x1024x128.rank)
  bcast_S1x1024x128_S4x1024x128_0_1_2 : S1x1024x128.BroadcastsInDim S4x1024x128 (![0, 1, 2] : Fin 3 → Fin S4x1024x128.rank)
  reducesTo_S4x1024x128_S4x1024_d2 : S4x1024x128.ReducesTo [2] S4x1024
  pads_S1x512_S1x1024_000_05120 : S1x512.Pads (![0, 0] : Fin 2 → Nat) ![0, 512] ![0, 0] S1x1024
  shapeCasts_S4096_S1x4096 : S4096.ShapeCasts S1x4096
  bitsLt_bf16_f32 : FTy.bits .bf16 < FTy.bits .f32
  transposes_S4096x128_S128x4096_1_0 : S4096x128.Transposes [1, 0] S128x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  slices_S256x1024_o0_0_S256x512 : S256x1024.Slices ![0, 0] S256x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S128x4096_o0_0_S128x1024 : S128x4096.Slices ![0, 0] S128x1024
  slices_S4x1024_o0_0_S1x1024 : S4x1024.Slices ![0, 0] S1x1024
  slices_S1x4096_o0_0_S1x1024 : S1x4096.Slices ![0, 0] S1x1024
  slices_S128x4096_o0_1024_S128x1024 : S128x4096.Slices ![0, 1024] S128x1024
  slices_S4x1024_o1_0_S1x1024 : S4x1024.Slices ![1, 0] S1x1024
  slices_S1x4096_o0_1024_S1x1024 : S1x4096.Slices ![0, 1024] S1x1024
  slices_S128x4096_o0_2048_S128x1024 : S128x4096.Slices ![0, 2048] S128x1024
  slices_S4x1024_o2_0_S1x1024 : S4x1024.Slices ![2, 0] S1x1024
  slices_S1x4096_o0_2048_S1x1024 : S1x4096.Slices ![0, 2048] S1x1024
  slices_S128x4096_o0_3072_S128x1024 : S128x4096.Slices ![0, 3072] S128x1024
  slices_S4x1024_o3_0_S1x1024 : S4x1024.Slices ![3, 0] S1x1024
  slices_S1x4096_o0_3072_S1x1024 : S1x4096.Slices ![0, 3072] S1x1024
  dot_S256x512_S512x128_S256x128_1_0_0_1_n_n_wf : DotDims.WF S256x512 S512x128 S256x128 [1] [0] [0] [1] [] []
  dot_S256x1024_S1024x128_S256x128_1_0_0_1_n_n_wf : DotDims.WF S256x1024 S1024x128 S256x128 [1] [0] [0] [1] [] []
  dot_S256x128_S128x1024_S256x1024_1_0_0_1_n_n_wf : DotDims.WF S256x128 S128x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S128x4096.size a
  hwx0_4 : ∀ i : grid0.Coords, EltTy.bits .bf16 = 32 ∨ (Rect.block (s := S128x4096) S128x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .bf16 = 32 ∨ (Rect.block (s := S1024x128) S1024x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S128x4096.size a
  hwx0_6 : ∀ i : grid0.Coords, EltTy.bits .bf16 = 32 ∨ (Rect.block (s := S128x4096) S128x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x1024.size a ≤ S4x1024.size a
  hwx0_9 : ∀ i : grid0.Coords, EltTy.bits .f32 = 32 ∨ (Rect.block (s := S4x1024) S4x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x1024.size a ≤ S4x1024.size a
  hwx0_10 : ∀ i : grid0.Coords, EltTy.bits .f32 = 32 ∨ (Rect.block (s := S4x1024) S4x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S4096x1024.size a
  hwx0_13 : ∀ i : grid0.Coords, EltTy.bits .f32 = 32 ∨ (Rect.block (s := S4096x1024) S256x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1024.size a ≤ S4096x1024.size a
  hwx0_14 : ∀ i : grid0.Coords, EltTy.bits .f32 = 32 ∨ (Rect.block (s := S4096x1024) S256x1024.size (cc0_transform_14 i) (hinb0_14 i)).WholeWords (EltTy.packing .f32)

variable [Facts₀]

def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S128x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S4x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S4x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22_0) S256x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v22_1) S256x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x1024 : Shape := ⟨2, ![4096, 1024]⟩
abbrev S512x128 : Shape := ⟨2, ![512, 128]⟩
abbrev S1024x128 : Shape := ⟨2, ![1024, 128]⟩
abbrev S4096x128 : Shape := ⟨2, ![4096, 128]⟩
abbrev S4096 : Shape := ⟨1, ![4096]⟩
abbrev S1x512 : Shape := ⟨2, ![1, 512]⟩
abbrev S1x1024 : Shape := ⟨2, ![1, 1024]⟩
abbrev S128x4096 : Shape := ⟨2, ![128, 4096]⟩
abbrev S4096x4096 : Shape := ⟨2, ![4096, 4096]⟩
abbrev S4x1024x128 : Shape := ⟨3, ![4, 1024, 128]⟩
abbrev S1x512x128 : Shape := ⟨3, ![1, 512, 128]⟩
abbrev S4x512x128 : Shape := ⟨3, ![4, 512, 128]⟩
abbrev S_ : Shape := ⟨0, ![]⟩
abbrev S4x512 : Shape := ⟨2, ![4, 512]⟩
abbrev S4096x1x512 : Shape := ⟨3, ![4096, 1, 512]⟩
abbrev S1x4x512 : Shape := ⟨3, ![1, 4, 512]⟩
abbrev S4096x4x512 : Shape := ⟨3, ![4096, 4, 512]⟩
abbrev S4096x4x1024 : Shape := ⟨3, ![4096, 4, 1024]⟩
abbrev S1x1024x128 : Shape := ⟨3, ![1, 1024, 128]⟩
abbrev S4x1024 : Shape := ⟨2, ![4, 1024]⟩
abbrev S4096x1x1024 : Shape := ⟨3, ![4096, 1, 1024]⟩
abbrev S1x4x1024 : Shape := ⟨3, ![1, 4, 1024]⟩
abbrev S1x4096 : Shape := ⟨2, ![1, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S512x128, .f32⟩
  | .hbm, ⟨4, _⟩ => ⟨S1024x128, .f32⟩
  | .hbm, ⟨5, _⟩ => ⟨S4096x128, .f32⟩
  | .hbm, ⟨6, _⟩ => ⟨S4096x128, .f32⟩
  | .hbm, ⟨7, _⟩ => ⟨S4096, .f32⟩
  | .hbm, ⟨8, _⟩ => ⟨S4096, .f32⟩
  | .hbm, ⟨9, _⟩ => ⟨S1x512, .f32⟩
  | .hbm, ⟨10, _⟩ => ⟨S1x1024, .f32⟩
  | .hbm, ⟨11, _⟩ => ⟨S4096x128, .f32⟩
  | .hbm, ⟨12, _⟩ => ⟨S128x4096, .f32⟩
  | .hbm, ⟨13, _⟩ => ⟨S4096x4096, .f32⟩
  | .hbm, ⟨14, _⟩ => ⟨S4096x128, .f32⟩
  | .hbm, ⟨15, _⟩ => ⟨S128x4096, .f32⟩
  | .hbm, ⟨16, _⟩ => ⟨S4096x4096, .f32⟩
  | .hbm, ⟨17, _⟩ => ⟨S4x1024x128, .f32⟩
  | .hbm, ⟨18, _⟩ => ⟨S1x512x128, .f32⟩
  | .hbm, ⟨19, _⟩ => ⟨S4x512x128, .f32⟩
  | .hbm, ⟨20, _⟩ => ⟨S4x512x128, .f32⟩
  | .hbm, ⟨21, _⟩ => ⟨S4x512x128, .f32⟩
  | .hbm, ⟨22, _⟩ => ⟨S_, .f32⟩
  | .hbm, ⟨23, _⟩ => ⟨S4x512, .f32⟩
  | .hbm, ⟨24, _⟩ => ⟨S4096x1x512, .f32⟩
  | .hbm, ⟨25, _⟩ => ⟨S1x4x512, .f32⟩
  | .hbm, ⟨26, _⟩ => ⟨S4096x4x512, .f32⟩
  | .hbm, ⟨27, _⟩ => ⟨S4096x4x512, .f32⟩
  | .hbm, ⟨28, _⟩ => ⟨S4096x4x512, .f32⟩
  | .hbm, ⟨29, _⟩ => ⟨S_, .i32⟩
  | .hbm, ⟨30, _⟩ => ⟨S_, .f32⟩
  | .hbm, ⟨31, _⟩ => ⟨S4096x4x1024, .f32⟩
  | .hbm, ⟨32, _⟩ => ⟨S4096x4096, .f32⟩
  | .hbm, ⟨33, _⟩ => ⟨S4x1024x128, .f32⟩
  | .hbm, ⟨34, _⟩ => ⟨S1x1024x128, .f32⟩
  | .hbm, ⟨35, _⟩ => ⟨S4x1024x128, .f32⟩
  | .hbm, ⟨36, _⟩ => ⟨S4x1024x128, .f32⟩
  | .hbm, ⟨37, _⟩ => ⟨S_, .f32⟩
  | .hbm, ⟨38, _⟩ => ⟨S4x1024, .f32⟩
  | .hbm, ⟨39, _⟩ => ⟨S4096x1x1024, .f32⟩
  | .hbm, ⟨40, _⟩ => ⟨S1x4x1024, .f32⟩
  | .hbm, ⟨41, _⟩ => ⟨S4096x4x1024, .f32⟩
  | .hbm, ⟨42, _⟩ => ⟨S4096x4x1024, .f32⟩
  | .hbm, ⟨43, _⟩ => ⟨S4096x4x1024, .f32⟩
  | .hbm, ⟨44, _⟩ => ⟨S4096x4096, .f32⟩
  | .hbm, ⟨45, _⟩ => ⟨S4096x4096, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S1x4096, .f32⟩
  | .hbm, ⟨51, _⟩ => ⟨S4096x4096, .f32⟩
  | .hbm, ⟨52, _⟩ => ⟨S4096x4096, .f32⟩
  | .hbm, ⟨53, _⟩ => ⟨S4096x512, .f32⟩
  | .hbm, ⟨54, _⟩ => ⟨S4096x512, .f32⟩
  | .hbm, ⟨55, _⟩ => ⟨S_, .i32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096x1024, .f32⟩
  | .hbm, ⟨95, _⟩ => ⟨S4096x1024, .f32⟩
  | .hbm, ⟨96, _⟩ => ⟨S_, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_1 : Ref sig .tc := ⟨.hbm, 55, rfl⟩
abbrev main_call1_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_2 : Ref sig .tc := ⟨.hbm, 73, rfl⟩
abbrev main_v56 : Ref sig .tc := ⟨.hbm, 74, rfl⟩
abbrev main_v57 : Ref sig .tc := ⟨.hbm, 75, rfl⟩
abbrev main_cst_3 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_4 : Ref sig .tc := ⟨.hbm, 83, rfl⟩
abbrev main_v64 : Ref sig .tc := ⟨.hbm, 84, rfl⟩
abbrev main_v65 : Ref sig .tc := ⟨.hbm, 85, rfl⟩
abbrev main_cst_5 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_6 : Ref sig .tc := ⟨.hbm, 93, rfl⟩
abbrev main_v72 : Ref sig .tc := ⟨.hbm, 94, rfl⟩
abbrev main_v73 : Ref sig .tc := ⟨.hbm, 95, rfl⟩
abbrev main_cst_7 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]

class Facts₀ : Prop where
  transposes_S4096x128_S128x4096_1_0 : S4096x128.Transposes [1, 0] S128x4096
  shapeCasts_S4096x128_S4x1024x128 : S4096x128.ShapeCasts S4x1024x128
  bcast_S512x128_S1x512x128_1_2 : S512x128.BroadcastsInDim S1x512x128 (![1, 2] : Fin 2 → Fin S1x512x128.rank)
  slices_S4x1024x128_S4x512x128_0_0_0 : S4x1024x128.Slices ![0, 0, 0] S4x512x128
  bcast_S1x512x128_S4x512x128_0_1_2 : S1x512x128.BroadcastsInDim S4x512x128 (![0, 1, 2] : Fin 3 → Fin S4x512x128.rank)
  reducesTo_S4x512x128_S4x512_d2 : S4x512x128.ReducesTo [2] S4x512
  h_S_ : 0 < S_.numel
  bcast_S4096x512_S4096x1x512_0_2 : S4096x512.BroadcastsInDim S4096x1x512 (![0, 2] : Fin 2 → Fin S4096x1x512.rank)
  bcast_S4x512_S1x4x512_1_2 : S4x512.BroadcastsInDim S1x4x512 (![1, 2] : Fin 2 → Fin S1x4x512.rank)
  bcast_S4096x1x512_S4096x4x512_0_1_2 : S4096x1x512.BroadcastsInDim S4096x4x512 (![0, 1, 2] : Fin 3 → Fin S4096x4x512.rank)
  bcast_S1x4x512_S4096x4x512_0_1_2 : S1x4x512.BroadcastsInDim S4096x4x512 (![0, 1, 2] : Fin 3 → Fin S4096x4x512.rank)
  pads_S4096x4x512_S4096x4x1024_000_000_05120 : S4096x4x512.Pads (![0, 0, 0] : Fin 3 → Nat) ![0, 0, 512] ![0, 0, 0] S4096x4x1024
  shapeCasts_S4096x4x1024_S4096x4096 : S4096x4x1024.ShapeCasts S4096x4096
  bcast_S1024x128_S1x1024x128_1_2 : S1024x128.BroadcastsInDim S1x1024x128 (![1, 2] : Fin 2 → Fin S1x1024x128.rank)
  bcast_S1x1024x128_S4x1024x128_0_1_2 : S1x1024x128.BroadcastsInDim S4x1024x128 (![0, 1, 2] : Fin 3 → Fin S4x1024x128.rank)
  reducesTo_S4x1024x128_S4x1024_d2 : S4x1024x128.ReducesTo [2] S4x1024
  bcast_S4096x1024_S4096x1x1024_0_2 : S4096x1024.BroadcastsInDim S4096x1x1024 (![0, 2] : Fin 2 → Fin S4096x1x1024.rank)
  bcast_S4x1024_S1x4x1024_1_2 : S4x1024.BroadcastsInDim S1x4x1024 (![1, 2] : Fin 2 → Fin S1x4x1024.rank)
  bcast_S4096x1x1024_S4096x4x1024_0_1_2 : S4096x1x1024.BroadcastsInDim S4096x4x1024 (![0, 1, 2] : Fin 3 → Fin S4096x4x1024.rank)
  bcast_S1x4x1024_S4096x4x1024_0_1_2 : S1x4x1024.BroadcastsInDim S4096x4x1024 (![0, 1, 2] : Fin 3 → Fin S4096x4x1024.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S1x512_S4096x512_0_1 : S1x512.BroadcastsInDim S4096x512 (![0, 1] : Fin 2 → Fin S4096x512.rank)
  pads_S4096x512_S4096x1024_000_05120 : S4096x512.Pads (![0, 0] : Fin 2 → Nat) ![0, 512] ![0, 0] S4096x1024
  bcast_S1x1024_S4096x1024_0_1 : S1x1024.BroadcastsInDim S4096x1024 (![0, 1] : Fin 2 → Fin S4096x1024.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x512_S512x128_S4096x128_1_0_0_1_n_n_wf : DotDims.WF S4096x512 S512x128 S4096x128 [1] [0] [0] [1] [] []
  dot_S4096x128_S128x4096_S4096x4096_1_0_0_1_n_n_wf : DotDims.WF S4096x128 S128x4096 S4096x4096 [1] [0] [0] [1] [] []
  dot_S4096x1024_S1024x128_S4096x128_1_0_0_1_n_n_wf : DotDims.WF S4096x1024 S1024x128 S4096x128 [1] [0] [0] [1] [] []

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf

class Facts : Prop extends Facts₀ where

variable [Facts]
-- ==== Proof.CellSpec.lean ====
/-
  One step of a long short-term memory cell whose input and hidden weight matrices are low-rank products
  with a per-gate diagonal correction, written as ONE function of a row of the (column-padded) input,
  a row of the hidden state, a row of the cell state and the weight tables, column by column.

  For gate g in {0,1,2,3} (input, forget, output, candidate) and column j < 1024, with n = 1024 g + j:

    pre g j = ((sum_w (sum_{k<512} x k * Ux k w) * VxT w n  -  x j * cx g j) + bx n)
            + ((sum_w (sum_{k<1024} h k * Uh k w) * VhT w n  -  h j * ch g j) + bh n)
            + (dx j * x j + dh j * h j)

    c' j = sigma (pre 1 j) * c j + sigma (pre 0 j) * tanh (pre 3 j)
    h' j = sigma (pre 2 j) * tanh (c' j)

  over the extended reals, with sigma z = 1 / (1 + exp (-z)).  The input row x has 1024 columns of which
  only the first 512 carry data (the rest are zero); cx and dx are padded with zeros the same way.
-/
import Idealize.ShloMosaic.PureOps.Ideal
import Idealize.ShloMosaic.Lib.ValueIdx
import Idealize.ShloMosaic.Lib.IdealHost

noncomputable section

namespace Cert.Cell

open Idealize.ShloMosaic Idealize.ShloMosaic.ValueIdx

/-- A rank-2 table of extended reals with `a` rows and `b` columns. -/
abbrev Arr (a b : Nat) : Type := (⟨2, ![a, b]⟩ : Shape).Idx → EReal

/-- Column `j` of gate `g` in the gate-major layout of 4 · 1024 columns. -/
def col (g : Fin 4) (j : Fin 1024) : Fin 4096 := ⟨g.val * 1024 + j.val, by omega⟩

theorem col_val (g : Fin 4) (j : Fin 1024) : (col g j).val = g.val * 1024 + j.val := rfl

/-- One of the first 512 columns as a column of the padded row. -/
def lo512 (k : Fin 512) : Fin 1024 := ⟨k.val, by omega⟩

theorem lo512_val (k : Fin 512) : (lo512 k).val = k.val := rfl

/-- A table of 512 columns extended by zeros to 1024 columns. -/
def padCols {R : Nat} (x : Arr R 512) : Arr R 1024 :=
  fun i => if h : (i 1).val < 512 then x (ix2 (i 0) ⟨(i 1).val, h⟩) else 0

theorem padCols_ix2 {R : Nat} (x : Arr R 512) (b : Fin R) (j : Fin 1024) :
    padCols x (ix2 b j) = if h : j.val < 512 then x (ix2 b ⟨j.val, h⟩) else 0 := rfl

theorem padCols_lo {R : Nat} (x : Arr R 512) (b : Fin R) (k : Fin 512) :
    padCols x (ix2 b (lo512 k)) = x (ix2 b k) := by
  rw [padCols_ix2, dif_pos (show (lo512 k).val < 512 from k.isLt)]
  rfl

theorem padCols_hi {R : Nat} (x : Arr R 512) (b : Fin R) (j : Fin 1024) (h : ¬ j.val < 512) :
    padCols x (ix2 b j) = 0 := by
  rw [padCols_ix2, dif_neg h]

/-- The transpose of a 4096 × 128 table. -/
def transp (V : Arr 4096 128) : Arr 128 4096 := fun i => V (ix2 (i 1) (i 0))

theorem transp_ix2 (V : Arr 4096 128) (w : Fin 128) (n : Fin 4096) : transp V (ix2 w n) = V (ix2 n w) := rfl

/-- A vector of 4096 entries as a one-row table. -/
def asRow (b : (⟨1, ![4096]⟩ : Shape).Idx → EReal) : Arr 1 4096 := fun i => b (ix1 (i 1))

theorem asRow_ix2 (b : (⟨1, ![4096]⟩ : Shape).Idx → EReal) (z : Fin 1) (n : Fin 4096) : asRow b (ix2 z n) = b (ix1 n) := rfl

/-- Row `b` of a table, as a function of the column. -/
def rowOf {R C : Nat} (x : Arr R C) (b : Fin R) : Fin C → EReal := fun k => x (ix2 b k)

theorem rowOf_apply {R C : Nat} (x : Arr R C) (b : Fin R) (k : Fin C) : rowOf x b k = x (ix2 b k) := rfl

/-- The low-rank product of the input row with the two input factors, at column `n` of the 4096. -/
def lowX (xr : Fin 1024 → EReal) (Ux : Arr 512 128) (VxT : Arr 128 4096) (n : Fin 4096) : EReal :=
  ∑ w : Fin 128, (∑ k : Fin 512, xr (lo512 k) * Ux (ix2 k w)) * VxT (ix2 w n)

/-- The low-rank product of the hidden row with the two hidden factors, at column `n` of the 4096. -/
def lowH (hr : Fin 1024 → EReal) (Uh : Arr 1024 128) (VhT : Arr 128 4096) (n : Fin 4096) : EReal :=
  ∑ w : Fin 128, (∑ k : Fin 1024, hr k * Uh (ix2 k w)) * VhT (ix2 w n)

/-- The pre-activation of gate `g` at column `j`. -/
def preact (g : Fin 4) (xr hr : Fin 1024 → EReal) (Ux : Arr 512 128) (VxT : Arr 128 4096) (Uh : Arr 1024 128)
    (VhT : Arr 128 4096) (bx bh : Arr 1 4096) (cx ch : Arr 4 1024) (dx dh : Arr 1 1024) (j : Fin 1024) : EReal :=
  ((lowX xr Ux VxT (col g j) - xr j * cx (ix2 g j)) + bx (ix2 0 (col g j)))
    + ((lowH hr Uh VhT (col g j) - hr j * ch (ix2 g j)) + bh (ix2 0 (col g j)))
    + (dx (ix2 0 j) * xr j + dh (ix2 0 j) * hr j)

/-- The new cell state at column `j`. -/
def cnext (xr hr cr : Fin 1024 → EReal) (Ux : Arr 512 128) (VxT : Arr 128 4096) (Uh : Arr 1024 128)
    (VhT : Arr 128 4096) (bx bh : Arr 1 4096) (cx ch : Arr 4 1024) (dx dh : Arr 1 1024) (j : Fin 1024) : EReal :=
  Ideal.logistic (preact 1 xr hr Ux VxT Uh VhT bx bh cx ch dx dh j) * cr j
    + Ideal.logistic (preact 0 xr hr Ux VxT Uh VhT bx bh cx ch dx dh j)
      * Ideal.tanh (preact 3 xr hr Ux VxT Uh VhT bx bh cx ch dx dh j)

/-- The new hidden state at column `j`. -/
def hnext (xr hr cr : Fin 1024 → EReal) (Ux : Arr 512 128) (VxT : Arr 128 4096) (Uh : Arr 1024 128)
    (VhT : Arr 128 4096) (bx bh : Arr 1 4096) (cx ch : Arr 4 1024) (dx dh : Arr 1 1024) (j : Fin 1024) : EReal :=
  Ideal.logistic (preact 2 xr hr Ux VxT Uh VhT bx bh cx ch dx dh j)
    * Ideal.tanh (cnext xr hr cr Ux VxT Uh VhT bx bh cx ch dx dh j)

/-- The logistic function spelt with the float word of one: 1 / (1 + exp (-z)). -/
theorem logistic_eq (z : EReal) :
    Ideal.logistic z = Ideal.div (Ideal.ofBits .f32 0x3F800000#32) (Ideal.ofBits .f32 0x3F800000#32 + Ideal.exp (-z)) := by
  rw [Ideal.ofBits_one_f32]; rfl

end Cert.Cell

end
-- ==== Proof.KerPayload.lean ====
/-
  What the kernel body leaves in its two output blocks, read at one entry.

  One grid point holds a tile of 256 rows.  At row r and column j of the tile the body's stores hold the new
  cell state and the new hidden state of the cell specification (CellSpec.lean) applied to row r of the input,
  hidden and cell tiles and to the weight tables: `pay_c` and `pay_h`.

  The route, bottom-up: each of the body's three matrix products into a zero accumulator is the plain sum over
  the contracted axis; the two rank-128 projections are sums over the 512 data columns of the input row and over
  the 1024 columns of the hidden row; a gate's two products against a 1024-column slice of the second factors at
  column offset 1024 g are the low-rank products at column 1024 g + j; a one-row table broadcast over the 256 rows
  reads its one row; a format change and a shape cast to the same shape are the identity over the extended reals.
-/
import proofs.«179790_j26680336843034_1_alg».proof.Proof.Gen.KernelIdeal.Frame
import proofs.«179790_j26680336843034_1_alg».proof.Proof.CellSpec
import Idealize.ShloMosaic.Lib.Pipeline.Value
import Idealize.ShloMosaic.Lib.ValueIdx
import Idealize.ShloMosaic.Lib.ValueLayout
import Idealize.ShloMosaic.PureOps.Ideal.Laws

noncomputable section

namespace Cert.Cell.Ker

open Cert.Cell Idealize.ShloMosaic Idealize.ShloMosaic.ValueIdx Cert.KernelIdeal Cert.KernelIdeal.Gen
open scoped BigOperators

/-! ## The three matrix products, read at an entry -/

theorem lhsA_0 (i : S256x128.Idx) (q : dot_S256x512_S512x128_S256x128_1_0_0_1_n_n.contr.Idx) :
    (dot_S256x512_S512x128_S256x128_1_0_0_1_n_n.lhsIdx i q 0).val = (i 0).val := by
  unfold DotDims.lhsIdx
  rw [dif_neg (show ¬(0 : Fin S256x512.rank) ∈ dot_S256x512_S512x128_S256x128_1_0_0_1_n_n.lhsBatch by decide), dif_pos (show (0 : Fin S256x512.rank) ∈ dot_S256x512_S512x128_S256x128_1_0_0_1_n_n.lhsNonContracting by decide)]
  rfl
theorem lhsA_1 (i : S256x128.Idx) (q : dot_S256x512_S512x128_S256x128_1_0_0_1_n_n.contr.Idx) :
    (dot_S256x512_S512x128_S256x128_1_0_0_1_n_n.lhsIdx i q 1).val = (q ⟨0, by decide⟩).val :=
  dot_S256x512_S512x128_S256x128_1_0_0_1_n_n.lhsIdx_val_of_single rfl i q
theorem rhsA_0 (i : S256x128.Idx) (q : dot_S256x512_S512x128_S256x128_1_0_0_1_n_n.contr.Idx) :
    (dot_S256x512_S512x128_S256x128_1_0_0_1_n_n.rhsIdx i q 0).val = (q ⟨0, by decide⟩).val :=
  dot_S256x512_S512x128_S256x128_1_0_0_1_n_n.rhsIdx_val_of_single rfl i q
theorem rhsA_1 (i : S256x128.Idx) (q : dot_S256x512_S512x128_S256x128_1_0_0_1_n_n.contr.Idx) :
    (dot_S256x512_S512x128_S256x128_1_0_0_1_n_n.rhsIdx i q 1).val = (i 1).val := by
  unfold DotDims.rhsIdx
  rw [dif_neg (show ¬(1 : Fin S512x128.rank) ∈ dot_S256x512_S512x128_S256x128_1_0_0_1_n_n.rhsBatch by decide), dif_pos (show (1 : Fin S512x128.rank) ∈ dot_S256x512_S512x128_S256x128_1_0_0_1_n_n.rhsNonContracting by decide)]
  rfl

/-- The product of a 256 × 512 block with a 512 × 128 table into zero: the sum over the 512 contracted columns. -/
theorem mmA (l : FVec Ideal S256x512 .bf16) (r : FVec Ideal S512x128 .bf16) (i : Fin 256) (w : Fin 128) :
    matmul dot_S256x512_S512x128_S256x128_1_0_0_1_n_n none l r (constant (F := Ideal) S256x128 .f32 0x00000000#32) (ix2 i w)
      = ∑ k : Fin 512, l (ix2 i k) * r (ix2 k w) := by
  show FloatOps.matmul dot_S256x512_S512x128_S256x128_1_0_0_1_n_n none l r (constant (F := Ideal) S256x128 .f32 0x00000000#32) (ix2 i w) = _
  rw [Ideal.matmul_constant_zero_apply, ← Equiv.sum_comp (contrEquiv1 dot_S256x512_S512x128_S256x128_1_0_0_1_n_n 512 rfl rfl).symm]
  refine Finset.sum_congr rfl fun k _ => ?_
  have hk := contrEquiv1_symm_val dot_S256x512_S512x128_S256x128_1_0_0_1_n_n 512 rfl rfl k
  have el : dot_S256x512_S512x128_S256x128_1_0_0_1_n_n.lhsIdx (ix2 i w) ((contrEquiv1 dot_S256x512_S512x128_S256x128_1_0_0_1_n_n 512 rfl rfl).symm k) = ix2 i k := funext fun a => Fin.ext (by
    match a with
    | ⟨0, _⟩ => exact lhsA_0 _ _
    | ⟨1, _⟩ => exact (lhsA_1 _ _).trans hk)
  have er : dot_S256x512_S512x128_S256x128_1_0_0_1_n_n.rhsIdx (ix2 i w) ((contrEquiv1 dot_S256x512_S512x128_S256x128_1_0_0_1_n_n 512 rfl rfl).symm k) = ix2 k w := funext fun a => Fin.ext (by
    match a with
    | ⟨0, _⟩ => exact (rhsA_0 _ _).trans hk
    | ⟨1, _⟩ => exact rhsA_1 _ _)
  rw [el, er]

theorem lhsB_0 (i : S256x128.Idx) (q : dot_S256x1024_S1024x128_S256x128_1_0_0_1_n_n.contr.Idx) :
    (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem lhsB_1 (i : S256x128.Idx) (q : dot_S256x1024_S1024x128_S256x128_1_0_0_1_n_n.contr.Idx) :
    (dot_S256x1024_S1024x128_S256x128_1_0_0_1_n_n.lhsIdx i q 1).val = (q ⟨0, by decide⟩).val :=
  dot_S256x1024_S1024x128_S256x128_1_0_0_1_n_n.lhsIdx_val_of_single rfl i q
theorem rhsB_0 (i : S256x128.Idx) (q : dot_S256x1024_S1024x128_S256x128_1_0_0_1_n_n.contr.Idx) :
    (dot_S256x1024_S1024x128_S256x128_1_0_0_1_n_n.rhsIdx i q 0).val = (q ⟨0, by decide⟩).val :=
  dot_S256x1024_S1024x128_S256x128_1_0_0_1_n_n.rhsIdx_val_of_single rfl i q
theorem rhsB_1 (i : S256x128.Idx) (q : dot_S256x1024_S1024x128_S256x128_1_0_0_1_n_n.contr.Idx) :
    (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

/-- The product of a 256 × 1024 block with a 1024 × 128 table into zero: the sum over the 1024 contracted columns. -/
theorem mmB (l : FVec Ideal S256x1024 .bf16) (r : FVec Ideal S1024x128 .bf16) (i : Fin 256) (w : Fin 128) :
    matmul dot_S256x1024_S1024x128_S256x128_1_0_0_1_n_n none l r (constant (F := Ideal) S256x128 .f32 0x00000000#32) (ix2 i w)
      = ∑ k : Fin 1024, l (ix2 i k) * r (ix2 k w) := by
  show FloatOps.matmul dot_S256x1024_S1024x128_S256x128_1_0_0_1_n_n none l r (constant (F := Ideal) S256x128 .f32 0x00000000#32) (ix2 i w) = _
  rw [Ideal.matmul_constant_zero_apply, ← Equiv.sum_comp (contrEquiv1 dot_S256x1024_S1024x128_S256x128_1_0_0_1_n_n 1024 rfl rfl).symm]
  refine Finset.sum_congr rfl fun k _ => ?_
  have hk := contrEquiv1_symm_val dot_S256x1024_S1024x128_S256x128_1_0_0_1_n_n 1024 rfl rfl k
  have el : dot_S256x1024_S1024x128_S256x128_1_0_0_1_n_n.lhsIdx (ix2 i w) ((contrEquiv1 dot_S256x1024_S1024x128_S256x128_1_0_0_1_n_n 1024 rfl rfl).symm k) = ix2 i k := funext fun a => Fin.ext (by
    match a with
    | ⟨0, _⟩ => exact lhsB_0 _ _
    | ⟨1, _⟩ => exact (lhsB_1 _ _).trans hk)
  have er : dot_S256x1024_S1024x128_S256x128_1_0_0_1_n_n.rhsIdx (ix2 i w) ((contrEquiv1 dot_S256x1024_S1024x128_S256x128_1_0_0_1_n_n 1024 rfl rfl).symm k) = ix2 k w := funext fun a => Fin.ext (by
    match a with
    | ⟨0, _⟩ => exact (rhsB_0 _ _).trans hk
    | ⟨1, _⟩ => exact rhsB_1 _ _)
  rw [el, er]

theorem lhsC_0 (i : S256x1024.Idx) (q : dot_S256x128_S128x1024_S256x1024_1_0_0_1_n_n.contr.Idx) :
    (dot_S256x128_S128x1024_S256x1024_1_0_0_1_n_n.lhsIdx i q 0).val = (i 0).val := by
  unfold DotDims.lhsIdx
  rw [dif_neg (show ¬(0 : Fin S256x128.rank) ∈ dot_S256x128_S128x1024_S256x1024_1_0_0_1_n_n.lhsBatch by decide), dif_pos (show (0 : Fin S256x128.rank) ∈ dot_S256x128_S128x1024_S256x1024_1_0_0_1_n_n.lhsNonContracting by decide)]
  rfl
theorem lhsC_1 (i : S256x1024.Idx) (q : dot_S256x128_S128x1024_S256x1024_1_0_0_1_n_n.contr.Idx) :
    (dot_S256x128_S128x1024_S256x1024_1_0_0_1_n_n.lhsIdx i q 1).val = (q ⟨0, by decide⟩).val :=
  dot_S256x128_S128x1024_S256x1024_1_0_0_1_n_n.lhsIdx_val_of_single rfl i q
theorem rhsC_0 (i : S256x1024.Idx) (q : dot_S256x128_S128x1024_S256x1024_1_0_0_1_n_n.contr.Idx) :
    (dot_S256x128_S128x1024_S256x1024_1_0_0_1_n_n.rhsIdx i q 0).val = (q ⟨0, by decide⟩).val :=
  dot_S256x128_S128x1024_S256x1024_1_0_0_1_n_n.rhsIdx_val_of_single rfl i q
theorem rhsC_1 (i : S256x1024.Idx) (q : dot_S256x128_S128x1024_S256x1024_1_0_0_1_n_n.contr.Idx) :
    (dot_S256x128_S128x1024_S256x1024_1_0_0_1_n_n.rhsIdx i q 1).val = (i 1).val := by
  unfold DotDims.rhsIdx
  rw [dif_neg (show ¬(1 : Fin S128x1024.rank) ∈ dot_S256x128_S128x1024_S256x1024_1_0_0_1_n_n.rhsBatch by decide), dif_pos (show (1 : Fin S128x1024.rank) ∈ dot_S256x128_S128x1024_S256x1024_1_0_0_1_n_n.rhsNonContracting by decide)]
  rfl

/-- The product of a 256 × 128 block with a 128 × 1024 table into zero: the sum over the 128 contracted columns. -/
theorem mmC (l : FVec Ideal S256x128 .bf16) (r : FVec Ideal S128x1024 .bf16) (i : Fin 256) (w : Fin 1024) :
    matmul dot_S256x128_S128x1024_S256x1024_1_0_0_1_n_n none l r (constant (F := Ideal) S256x1024 .f32 0x00000000#32) (ix2 i w)
      = ∑ k : Fin 128, l (ix2 i k) * r (ix2 k w) := by
  show FloatOps.matmul dot_S256x128_S128x1024_S256x1024_1_0_0_1_n_n none l r (constant (F := Ideal) S256x1024 .f32 0x00000000#32) (ix2 i w) = _
  rw [Ideal.matmul_constant_zero_apply, ← Equiv.sum_comp (contrEquiv1 dot_S256x128_S128x1024_S256x1024_1_0_0_1_n_n 128 rfl rfl).symm]
  refine Finset.sum_congr rfl fun k _ => ?_
  have hk := contrEquiv1_symm_val dot_S256x128_S128x1024_S256x1024_1_0_0_1_n_n 128 rfl rfl k
  have el : dot_S256x128_S128x1024_S256x1024_1_0_0_1_n_n.lhsIdx (ix2 i w) ((contrEquiv1 dot_S256x128_S128x1024_S256x1024_1_0_0_1_n_n 128 rfl rfl).symm k) = ix2 i k := funext fun a => Fin.ext (by
    match a with
    | ⟨0, _⟩ => exact lhsC_0 _ _
    | ⟨1, _⟩ => exact (lhsC_1 _ _).trans hk)
  have er : dot_S256x128_S128x1024_S256x1024_1_0_0_1_n_n.rhsIdx (ix2 i w) ((contrEquiv1 dot_S256x128_S128x1024_S256x1024_1_0_0_1_n_n 128 rfl rfl).symm k) = ix2 k w := funext fun a => Fin.ext (by
    match a with
    | ⟨0, _⟩ => exact (rhsC_0 _ _).trans hk
    | ⟨1, _⟩ => exact rhsC_1 _ _)
  rw [el, er]

/-! ## Whole-block loads, and the casts and the broadcast of loads -/

theorem hz2 : (![0, 0] : Fin 2 → Nat) = fun _ => 0 :=
  funext fun a => match a with | ⟨0, _⟩ => rfl | ⟨1, _⟩ => rfl

/-- The input tile cast to its own shape is the tile. -/
theorem pay3_eq (v : Vec Ideal S256x1024 .f32) : k0_pay3 (F := Ideal) v = v := shapeCast_self _ _
/-- The second input factor cast to its own shape is itself. -/
theorem pay4_eq (v : Vec Ideal S128x4096 .bf16) : k0_pay4 (F := Ideal) v = v := shapeCast_self _ _
/-- The second hidden factor cast to its own shape is itself. -/
theorem pay5_eq (v : Vec Ideal S128x4096 .bf16) : k0_pay5 (F := Ideal) v = v := shapeCast_self _ _
/-- The input bias row cast to its own shape is itself. -/
theorem pay6_eq (v : Vec Ideal S1x4096 .f32) : k0_pay6 (F := Ideal) v = v := shapeCast_self _ _
/-- The hidden bias row cast to its own shape is itself. -/
theorem pay7_eq (v : Vec Ideal S1x4096 .f32) : k0_pay7 (F := Ideal) v = v := shapeCast_self _ _
/-- The input correction table cast to its own shape is itself. -/
theorem pay8_eq (v : Vec Ideal S4x1024 .f32) : k0_pay8 (F := Ideal) v = v := shapeCast_self _ _
/-- The hidden correction table cast to its own shape is itself. -/
theorem pay9_eq (v : Vec Ideal S4x1024 .f32) : k0_pay9 (F := Ideal) v = v := shapeCast_self _ _

/-- The input diagonal row, cast to its own shape and broadcast over the 256 rows, reads its one row. -/
theorem pay12_apply (v : Vec Ideal S1x1024 .f32) (r : Fin 256) (j : Fin 1024) :
    k0_pay12 (F := Ideal) v (ix2 r j) = v (ix2 (0 : Fin 1) j) := by
  unfold k0_pay12
  rw [shapeCast_self]
  exact broadcastTo_1b_ab_apply v _ r j

/-! ## The two rank-128 projections -/

/-- The projection of the input tile: the sum over the 512 data columns of row `r`. -/
theorem projX (x0 : Vec Ideal S256x1024 .f32) (x3 : Vec Ideal S512x128 .bf16) (r : Fin 256) (w : Fin 128) :
    k0_pay10 (F := Ideal) x0 x3 (ix2 r w) = ∑ k : Fin 512, x0 (ix2 r (lo512 k)) * x3 (ix2 k w) := by
  unfold k0_pay10
  rw [pay3_eq, shapeCast_self]
  refine (mmA _ _ r w).trans ?_
  refine Finset.sum_congr rfl fun k _ => ?_
  congr 1
  exact slice2_axis1_apply 0 x0 slices_S256x1024_o0_0_S256x512 r k (lo512 k) (by rw [lo512_val]; omega)

/-- The projection of the hidden tile: the sum over the 1024 columns of row `r`. -/
theorem projH (x1 : Vec Ideal S256x1024 .f32) (x5 : Vec Ideal S1024x128 .bf16) (r : Fin 256) (w : Fin 128) :
    k0_pay11 (F := Ideal) x1 x5 (ix2 r w) = ∑ k : Fin 1024, x1 (ix2 r k) * x5 (ix2 k w) := by
  unfold k0_pay11
  rw [shapeCast_self]
  exact mmB _ _ r w

/-- Summed against the second input factor at column `n`, the input projection is the low-rank product. -/
theorem lowX_eq (x0 : Vec Ideal S256x1024 .f32) (x3 : Vec Ideal S512x128 .bf16) (x4 : Vec Ideal S128x4096 .bf16)
    (r : Fin 256) (n : Fin 4096) :
    ∑ w : Fin 128, k0_pay10 (F := Ideal) x0 x3 (ix2 r w) * x4 (ix2 w n) = lowX (rowOf x0 r) x3 x4 n := by
  unfold lowX
  refine Finset.sum_congr rfl fun w _ => ?_
  rw [projX]
  rfl

/-- Summed against the second hidden factor at column `n`, the hidden projection is the low-rank product. -/
theorem lowH_eq (x1 : Vec Ideal S256x1024 .f32) (x5 : Vec Ideal S1024x128 .bf16) (x6 : Vec Ideal S128x4096 .bf16)
    (r : Fin 256) (n : Fin 4096) :
    ∑ w : Fin 128, k0_pay11 (F := Ideal) x1 x5 (ix2 r w) * x6 (ix2 w n) = lowH (rowOf x1 r) x5 x6 n := by
  unfold lowH
  refine Finset.sum_congr rfl fun w _ => ?_
  rw [projH]
  rfl

/-- The diagonal term: the two diagonal rows times the input and hidden entries. -/
theorem pay13_apply (x0 x1 : Vec Ideal S256x1024 .f32) (x11 x12 : Vec Ideal S1x1024 .f32) (r : Fin 256) (j : Fin 1024) :
    k0_pay13 (F := Ideal) x0 x1 x12 (k0_pay12 (F := Ideal) x11) (ix2 r j)
      = x11 (ix2 (0 : Fin 1) j) * x0 (ix2 r j) + x12 (ix2 (0 : Fin 1) j) * x1 (ix2 r j) := by
  unfold k0_pay13
  show k0_pay12 (F := Ideal) x11 (ix2 r j) * x0 (ix2 r j)
      + broadcastTo S256x1024 x12 broadcasts_S1x1024_S256x1024 (ix2 r j) * x1 (ix2 r j) = _
  rw [pay12_apply, broadcastTo_1b_ab_apply x12 _ r j]

/-! ## One gate's pre-activation -/

/-- One gate's pre-activation as the body spells it, over the body's values: the two projections times the gate's
    1024-column slices (column offset `o`) of the second factors, less the entries times the gate's row `gv` of the
    correction tables, plus the gate's slices of the two bias rows, plus the diagonal term `v34`. -/
def gateV (o gv : Nat) (hV : S128x4096.Slices ![0, o] S128x1024) (hc : S4x1024.Slices ![gv, 0] S1x1024)
    (hb : S1x4096.Slices ![0, o] S1x1024)
    (v1 v2 : FVec Ideal S256x1024 .f32) (v12 v14 : FVec Ideal S128x4096 .bf16) (v16 v18 : FVec Ideal S1x4096 .f32)
    (v20 v22 : FVec Ideal S4x1024 .f32) (v27 v29 : FVec Ideal S256x128 .bf16) (v34 : FVec Ideal S256x1024 .f32) :
    FVec Ideal S256x1024 .f32 :=
  addf
    (addf
      (addf
        (subf
          (matmul dot_S256x128_S128x1024_S256x1024_1_0_0_1_n_n none v27 (extractStridedSlice S128x1024 ![0, o] v12 hV)
            (constant (F := Ideal) S256x1024 .f32 0x00000000#32))
          (mulf v1 (broadcastTo S256x1024 (extractStridedSlice S1x1024 ![gv, 0] v20 hc) broadcasts_S1x1024_S256x1024)))
        (broadcastTo S256x1024 (extractStridedSlice S1x1024 ![0, o] v16 hb) broadcasts_S1x1024_S256x1024))
      (addf
        (subf
          (matmul dot_S256x128_S128x1024_S256x1024_1_0_0_1_n_n none v29 (extractStridedSlice S128x1024 ![0, o] v14 hV)
            (constant (F := Ideal) S256x1024 .f32 0x00000000#32))
          (mulf v2 (broadcastTo S256x1024 (extractStridedSlice S1x1024 ![gv, 0] v22 hc) broadcasts_S1x1024_S256x1024)))
        (broadcastTo S256x1024 (extractStridedSlice S1x1024 ![0, o] v18 hb) broadcasts_S1x1024_S256x1024)))
    v34

/-- A product against the 1024-column slice at column offset `o` of a second factor, at column `j`, is the sum against
    the factor's column `n = o + j`. -/
theorem gateMM (o : Nat) (hV : S128x4096.Slices ![0, o] S128x1024) (P : FVec Ideal S256x128 .bf16)
    (V : FVec Ideal S128x4096 .bf16) (r : Fin 256) (j : Fin 1024) (n : Fin 4096) (hn : n.val = o + j.val) :
    matmul dot_S256x128_S128x1024_S256x1024_1_0_0_1_n_n none P (extractStridedSlice S128x1024 ![0, o] V hV)
        (constant (F := Ideal) S256x1024 .f32 0x00000000#32) (ix2 r j)
      = ∑ w : Fin 128, P (ix2 r w) * V (ix2 w n) := by
  refine (mmC _ _ r j).trans ?_
  refine Finset.sum_congr rfl fun w _ => ?_
  congr 1
  exact slice2_axis1_apply o V hV w j n hn

/-- Row `gv` of a correction table, sliced out and broadcast over the 256 rows, reads the table at row `gv`. -/
theorem corrRow (gv : Nat) (hc : S4x1024.Slices ![gv, 0] S1x1024) (T : FVec Ideal S4x1024 .f32) (r : Fin 256)
    (j : Fin 1024) (gi : Fin 4) (hg : gi.val = gv) :
    broadcastTo S256x1024 (extractStridedSlice S1x1024 ![gv, 0] T hc) broadcasts_S1x1024_S256x1024 (ix2 r j)
      = T (ix2 gi j) := by
  refine (broadcastTo_1b_ab_apply _ _ r j).trans ?_
  exact slice2_axis0_apply gv T hc (0 : Fin 1) j gi hg

/-- The 1024-column slice at column offset `o` of a bias row, broadcast over the 256 rows, reads the row at `n = o + j`. -/
theorem biasRow (o : Nat) (hb : S1x4096.Slices ![0, o] S1x1024) (B : FVec Ideal S1x4096 .f32) (r : Fin 256)
    (j : Fin 1024) (n : Fin 4096) (hn : n.val = o + j.val) :
    broadcastTo S256x1024 (extractStridedSlice S1x1024 ![0, o] B hb) broadcasts_S1x1024_S256x1024 (ix2 r j)
      = B (ix2 (0 : Fin 1) n) := by
  refine (broadcastTo_1b_ab_apply _ _ r j).trans ?_
  exact slice2_axis1_apply o B hb (0 : Fin 1) j n hn

/-- The gate expression read at an entry. -/
theorem gateV_apply (o gv : Nat) (hV : S128x4096.Slices ![0, o] S128x1024) (hc : S4x1024.Slices ![gv, 0] S1x1024)
    (hb : S1x4096.Slices ![0, o] S1x1024)
    (v1 v2 : FVec Ideal S256x1024 .f32) (v12 v14 : FVec Ideal S128x4096 .bf16) (v16 v18 : FVec Ideal S1x4096 .f32)
    (v20 v22 : FVec Ideal S4x1024 .f32) (v27 v29 : FVec Ideal S256x128 .bf16) (v34 : FVec Ideal S256x1024 .f32)
    (r : Fin 256) (j : Fin 1024) (n : Fin 4096) (hn : n.val = o + j.val) (gi : Fin 4) (hg : gi.val = gv) :
    gateV o gv hV hc hb v1 v2 v12 v14 v16 v18 v20 v22 v27 v29 v34 (ix2 r j)
      = (((∑ w : Fin 128, v27 (ix2 r w) * v12 (ix2 w n)) - v1 (ix2 r j) * v20 (ix2 gi j)) + v16 (ix2 (0 : Fin 1) n))
        + (((∑ w : Fin 128, v29 (ix2 r w) * v14 (ix2 w n)) - v2 (ix2 r j) * v22 (ix2 gi j)) + v18 (ix2 (0 : Fin 1) n))
        + v34 (ix2 r j) := by
  unfold gateV
  show ((matmul dot_S256x128_S128x1024_S256x1024_1_0_0_1_n_n none v27 (extractStridedSlice S128x1024 ![0, o] v12 hV)
            (constant (F := Ideal) S256x1024 .f32 0x00000000#32) (ix2 r j)
          - v1 (ix2 r j) * broadcastTo S256x1024 (extractStridedSlice S1x1024 ![gv, 0] v20 hc) broadcasts_S1x1024_S256x1024 (ix2 r j))
        + broadcastTo S256x1024 (extractStridedSlice S1x1024 ![0, o] v16 hb) broadcasts_S1x1024_S256x1024 (ix2 r j))
      + ((matmul dot_S256x128_S128x1024_S256x1024_1_0_0_1_n_n none v29 (extractStridedSlice S128x1024 ![0, o] v14 hV)
            (constant (F := Ideal) S256x1024 .f32 0x00000000#32) (ix2 r j)
          - v2 (ix2 r j) * broadcastTo S256x1024 (extractStridedSlice S1x1024 ![gv, 0] v22 hc) broadcasts_S1x1024_S256x1024 (ix2 r j))
        + broadcastTo S256x1024 (extractStridedSlice S1x1024 ![0, o] v18 hb) broadcasts_S1x1024_S256x1024 (ix2 r j))
      + v34 (ix2 r j) = _
  rw [gateMM o hV v27 v12 r j n hn, gateMM o hV v29 v14 r j n hn, corrRow gv hc v20 r j gi hg, corrRow gv hc v22 r j gi hg,
    biasRow o hb v16 r j n hn, biasRow o hb v18 r j n hn]

/-- Gate `g`'s expression over the loaded blocks, at row `r` and column `j`, is the specification's pre-activation of
    gate `g` on row `r`. -/
theorem gate_pre (g : Fin 4) (o gv : Nat) (ho : o = g.val * 1024) (hgv : g.val = gv)
    (hV : S128x4096.Slices ![0, o] S128x1024) (hc : S4x1024.Slices ![gv, 0] S1x1024) (hb : S1x4096.Slices ![0, o] S1x1024)
    (x0 x1 : Vec Ideal S256x1024 .f32) (x3 : Vec Ideal S512x128 .bf16) (x4 : Vec Ideal S128x4096 .bf16)
    (x5 : Vec Ideal S1024x128 .bf16) (x6 : Vec Ideal S128x4096 .bf16) (x7 x8 : Vec Ideal S1x4096 .f32)
    (x9 x10 : Vec Ideal S4x1024 .f32) (x11 x12 : Vec Ideal S1x1024 .f32) (r : Fin 256) (j : Fin 1024) :
    gateV o gv hV hc hb x0 x1 x4 x6 x7 x8 x9 x10 (k0_pay10 (F := Ideal) x0 x3) (k0_pay11 (F := Ideal) x1 x5)
        (k0_pay13 (F := Ideal) x0 x1 x12 (k0_pay12 (F := Ideal) x11)) (ix2 r j)
      = preact g (rowOf x0 r) (rowOf x1 r) x3 x4 x5 x6 x7 x8 x9 x10 x11 x12 j := by
  rw [gateV_apply o gv hV hc hb x0 x1 x4 x6 x7 x8 x9 x10 _ _ _ r j (col g j) (by rw [col_val, ho]) g hgv,
    lowX_eq, lowH_eq, pay13_apply]
  rfl

/-! ## The body's payloads as gate expressions -/

/-- Gate 0's payload is the gate expression at column offset 0 and correction row 0. -/
theorem pay14_eq (v1 v2 : FVec Ideal S256x1024 .f32) (v12 v14 : FVec Ideal S128x4096 .bf16) (v16 v18 : FVec Ideal S1x4096 .f32) (v20 v22 : FVec Ideal S4x1024 .f32) (v25 : FVec Ideal S1x1024 .f32) (v27 v29 : FVec Ideal S256x128 .bf16) (v30 : FVec Ideal S256x1024 .f32) :
    k0_pay14 (F := Ideal) v1 v2 v12 v14 v16 v18 v20 v22 v25 v27 v29 v30
      = gateV 0 0 slices_S128x4096_o0_0_S128x1024 slices_S4x1024_o0_0_S1x1024 slices_S1x4096_o0_0_S1x1024
          v1 v2 v12 v14 v16 v18 v20 v22 v27 v29 (k0_pay13 (F := Ideal) v1 v2 v25 v30) := rfl

/-- Gate 1's payload is the gate expression at column offset 1024 and correction row 1. -/
theorem pay15_eq (v1 v2 : FVec Ideal S256x1024 .f32) (v12 v14 : FVec Ideal S128x4096 .bf16) (v16 v18 : FVec Ideal S1x4096 .f32) (v20 v22 : FVec Ideal S4x1024 .f32) (v25 : FVec Ideal S1x1024 .f32) (v27 v29 : FVec Ideal S256x128 .bf16) (v30 : FVec Ideal S256x1024 .f32) :
    k0_pay15 (F := Ideal) v1 v2 v12 v14 v16 v18 v20 v22 v25 v27 v29 v30
      = gateV 1024 1 slices_S128x4096_o0_1024_S128x1024 slices_S4x1024_o1_0_S1x1024 slices_S1x4096_o0_1024_S1x1024
          v1 v2 v12 v14 v16 v18 v20 v22 v27 v29 (k0_pay13 (F := Ideal) v1 v2 v25 v30) := rfl

/-- The stored cell payload at an index: the logistic of gate 1 times the old cell entry, plus the logistic of gate 0
    times the hyperbolic tangent of the gate expression at column offset 3072 and correction row 3. -/
theorem pay1_apply (v1 v2 : FVec Ideal S256x1024 .f32) (v12 v14 : FVec Ideal S128x4096 .bf16) (v16 v18 : FVec Ideal S1x4096 .f32) (v20 v22 : FVec Ideal S4x1024 .f32) (v3 : FVec Ideal S256x1024 .f32) (v27 v29 : FVec Ideal S256x128 .bf16)
    (v34 v54 v74 : FVec Ideal S256x1024 .f32) (i : S256x1024.Idx) :
    k0_pay1 (F := Ideal) v1 v2 v3 v12 v14 v16 v18 v20 v22 v27 v29 v34 v54 v74 i
      = Ideal.logistic (v74 i) * v3 i
        + Ideal.logistic (v54 i)
          * Ideal.tanh (gateV 3072 3 slices_S128x4096_o0_3072_S128x1024 slices_S4x1024_o3_0_S1x1024
              slices_S1x4096_o0_3072_S1x1024 v1 v2 v12 v14 v16 v18 v20 v22 v27 v29 v34 i) := rfl

/-- The stored hidden payload at an index: the logistic of the gate expression at column offset 2048 and correction
    row 2, times the hyperbolic tangent of the new cell entry. -/
theorem pay2_apply (v1 v2 : FVec Ideal S256x1024 .f32) (v12 v14 : FVec Ideal S128x4096 .bf16) (v16 v18 : FVec Ideal S1x4096 .f32) (v20 v22 : FVec Ideal S4x1024 .f32) (v27 v29 : FVec Ideal S256x128 .bf16) (v34 v121 : FVec Ideal S256x1024 .f32) (i : S256x1024.Idx) :
    k0_pay2 (F := Ideal) v16 v18 v34 (k0_pay16 (F := Ideal) v12 v27) (k0_pay17 (F := Ideal) v14 v29)
        (k0_pay18 (F := Ideal) v1 v20) (k0_pay19 (F := Ideal) v2 v22) v121 i
      = Ideal.logistic (gateV 2048 2 slices_S128x4096_o0_2048_S128x1024 slices_S4x1024_o2_0_S1x1024
            slices_S1x4096_o0_2048_S1x1024 v1 v2 v12 v14 v16 v18 v20 v22 v27 v29 v34 i)
        * Ideal.tanh (v121 i) := rfl

/-! ## The new cell state -/

/-- The block of new cell states over the loaded blocks. -/
def cBlock (x0 x1 x2 : Vec Ideal S256x1024 .f32) (x3 : Vec Ideal S512x128 .bf16) (x4 : Vec Ideal S128x4096 .bf16) (x5 : Vec Ideal S1024x128 .bf16) (x6 : Vec Ideal S128x4096 .bf16) (x7 x8 : Vec Ideal S1x4096 .f32) (x9 x10 : Vec Ideal S4x1024 .f32) (x11 x12 : Vec Ideal S1x1024 .f32) : FVec Ideal S256x1024 .f32 :=
  k0_pay1 (F := Ideal) x0 x1 x2 x4 x6 x7 x8 x9 x10 (k0_pay10 (F := Ideal) x0 x3) (k0_pay11 (F := Ideal) x1 x5)
    (k0_pay13 (F := Ideal) x0 x1 x12 (k0_pay12 (F := Ideal) x11))
    (k0_pay14 (F := Ideal) x0 x1 x4 x6 x7 x8 x9 x10 x12 (k0_pay10 (F := Ideal) x0 x3) (k0_pay11 (F := Ideal) x1 x5) (k0_pay12 (F := Ideal) x11))
    (k0_pay15 (F := Ideal) x0 x1 x4 x6 x7 x8 x9 x10 x12 (k0_pay10 (F := Ideal) x0 x3) (k0_pay11 (F := Ideal) x1 x5) (k0_pay12 (F := Ideal) x11))

/-- An entry of the block of new cell states is the specification's new cell state on the entry's row. -/
theorem cBlock_apply (x0 x1 x2 : Vec Ideal S256x1024 .f32) (x3 : Vec Ideal S512x128 .bf16) (x4 : Vec Ideal S128x4096 .bf16) (x5 : Vec Ideal S1024x128 .bf16) (x6 : Vec Ideal S128x4096 .bf16) (x7 x8 : Vec Ideal S1x4096 .f32) (x9 x10 : Vec Ideal S4x1024 .f32) (x11 x12 : Vec Ideal S1x1024 .f32) (r : Fin 256) (j : Fin 1024) :
    cBlock x0 x1 x2 x3 x4 x5 x6 x7 x8 x9 x10 x11 x12 (ix2 r j)
      = cnext (rowOf x0 r) (rowOf x1 r) (rowOf x2 r) x3 x4 x5 x6 x7 x8 x9 x10 x11 x12 j := by
  unfold cBlock
  rw [pay1_apply, pay14_eq, pay15_eq,
    gate_pre 1 1024 1 rfl rfl _ _ _ x0 x1 x3 x4 x5 x6 x7 x8 x9 x10 x11 x12 r j,
    gate_pre 0 0 0 rfl rfl _ _ _ x0 x1 x3 x4 x5 x6 x7 x8 x9 x10 x11 x12 r j,
    gate_pre 3 3072 3 rfl rfl _ _ _ x0 x1 x3 x4 x5 x6 x7 x8 x9 x10 x11 x12 r j]
  rfl

/-- What the body leaves in the cell output block is the block of new cell states: the one store covers the block,
    and every load reads a whole block. -/
theorem out14_eq (x0 x1 x2 : Vec Ideal S256x1024 .f32) (x3 : Vec Ideal S512x128 .bf16) (x4 : Vec Ideal S128x4096 .bf16) (x5 : Vec Ideal S1024x128 .bf16) (x6 : Vec Ideal S128x4096 .bf16) (x7 x8 : Vec Ideal S1x4096 .f32) (x9 x10 : Vec Ideal S4x1024 .f32) (x11 x12 : Vec Ideal S1x1024 .f32) :
    out0_14 (F := Ideal) x0 x1 x2 x3 x4 x5 x6 x7 x8 x9 x10 x11 x12 = cBlock x0 x1 x2 x3 x4 x5 x6 x7 x8 x9 x10 x11 x12 := by
  unfold out0_14 cBlock
  rw [View.canon_unit_zero hz2]
  simp only [View.ld_unit_zero (S := S256x1024) hz2, View.ld_unit_zero (S := S512x128) hz2, View.ld_unit_zero (S := S1024x128) hz2, View.ld_unit_zero (S := S128x4096) hz2, View.ld_unit_zero (S := S1x4096) hz2, View.ld_unit_zero (S := S4x1024) hz2, View.ld_unit_zero (S := S1x1024) hz2,
    pay3_eq, pay4_eq, pay5_eq, pay6_eq, pay7_eq, pay8_eq, pay9_eq]

theorem pay_c (x0 x1 x2 : Vec Ideal S256x1024 .f32) (x3 : Vec Ideal S512x128 .bf16) (x4 : Vec Ideal S128x4096 .bf16) (x5 : Vec Ideal S1024x128 .bf16) (x6 : Vec Ideal S128x4096 .bf16) (x7 x8 : Vec Ideal S1x4096 .f32) (x9 x10 : Vec Ideal S4x1024 .f32) (x11 x12 : Vec Ideal S1x1024 .f32) (r : Fin 256) (j : Fin 1024) :
    out0_14 (F := Ideal) x0 x1 x2 x3 x4 x5 x6 x7 x8 x9 x10 x11 x12 (ix2 r j)
      = cnext (rowOf x0 r) (rowOf x1 r) (rowOf x2 r) x3 x4 x5 x6 x7 x8 x9 x10 x11 x12 j := by
  rw [out14_eq]
  exact cBlock_apply x0 x1 x2 x3 x4 x5 x6 x7 x8 x9 x10 x11 x12 r j

/-! ## The new hidden state -/

/-- What the body leaves in the hidden output block, over the loaded blocks. -/
theorem out13_eq (x0 x1 x2 : Vec Ideal S256x1024 .f32) (x3 : Vec Ideal S512x128 .bf16) (x4 : Vec Ideal S128x4096 .bf16) (x5 : Vec Ideal S1024x128 .bf16) (x6 : Vec Ideal S128x4096 .bf16) (x7 x8 : Vec Ideal S1x4096 .f32) (x9 x10 : Vec Ideal S4x1024 .f32) (x11 x12 : Vec Ideal S1x1024 .f32) :
    out0_13 (F := Ideal) x0 x1 x2 x3 x4 x5 x6 x7 x8 x9 x10 x11 x12
      = k0_pay2 (F := Ideal) x7 x8 (k0_pay13 (F := Ideal) x0 x1 x12 (k0_pay12 (F := Ideal) x11))
          (k0_pay16 (F := Ideal) x4 (k0_pay10 (F := Ideal) x0 x3)) (k0_pay17 (F := Ideal) x6 (k0_pay11 (F := Ideal) x1 x5))
          (k0_pay18 (F := Ideal) x0 x9) (k0_pay19 (F := Ideal) x1 x10) (cBlock x0 x1 x2 x3 x4 x5 x6 x7 x8 x9 x10 x11 x12) := by
  unfold out0_13 cBlock
  rw [View.canon_unit_zero hz2]
  simp only [View.ld_unit_zero (S := S256x1024) hz2, View.ld_unit_zero (S := S512x128) hz2, View.ld_unit_zero (S := S1024x128) hz2, View.ld_unit_zero (S := S128x4096) hz2, View.ld_unit_zero (S := S1x4096) hz2, View.ld_unit_zero (S := S4x1024) hz2, View.ld_unit_zero (S := S1x1024) hz2,
    pay3_eq, pay4_eq, pay5_eq, pay6_eq, pay7_eq, pay8_eq, pay9_eq]

theorem pay_h (x0 x1 x2 : Vec Ideal S256x1024 .f32) (x3 : Vec Ideal S512x128 .bf16) (x4 : Vec Ideal S128x4096 .bf16) (x5 : Vec Ideal S1024x128 .bf16) (x6 : Vec Ideal S128x4096 .bf16) (x7 x8 : Vec Ideal S1x4096 .f32) (x9 x10 : Vec Ideal S4x1024 .f32) (x11 x12 : Vec Ideal S1x1024 .f32) (r : Fin 256) (j : Fin 1024) :
    out0_13 (F := Ideal) x0 x1 x2 x3 x4 x5 x6 x7 x8 x9 x10 x11 x12 (ix2 r j)
      = hnext (rowOf x0 r) (rowOf x1 r) (rowOf x2 r) x3 x4 x5 x6 x7 x8 x9 x10 x11 x12 j := by
  rw [out13_eq, pay2_apply,
    gate_pre 2 2048 2 rfl rfl _ _ _ x0 x1 x3 x4 x5 x6 x7 x8 x9 x10 x11 x12 r j, cBlock_apply]
  rfl

end Cert.Cell.Ker

end
-- ==== Proof.KerHost.lean ====
/-
  The arrays the kernel's one region reads, as the host operations in front of it leave them, each as a plain
  function of the program's arguments (extended reals): the input padded with zeros from 512 to 1024 columns,
  the two left factors unchanged (a change of float format is the identity), the two right factors transposed,
  the two bias vectors as one-row tables, the per-gate diagonal corrections (the input one padded with zeros),
  and the input diagonal padded with zeros.
-/
import proofs.«179790_j26680336843034_1_alg».proof.Proof.Gen.KernelIdeal.Frame
import proofs.«179790_j26680336843034_1_alg».proof.Proof.CellSpec
import Idealize.ShloMosaic.Lib.Pipeline.Value
import Idealize.ShloMosaic.Lib.StableHlo.Run
import Idealize.ShloMosaic.Lib.KernelVsHost
import Idealize.ShloMosaic.Lib.ValueLayout

set_option maxRecDepth 16384

noncomputable section

namespace Cert.Cell.KerHost

open Cert.Cell Idealize.ShloMosaic Idealize.ShloMosaic.ValueIdx Idealize.ShloMosaic.TcCoe Idealize.SL.Sem
open Cert.KernelIdeal Cert.KernelIdeal.Gen

/-! ## Padding 512 columns to 1024 with a zero -/

/-- The integer zero converted to a float is the extended real zero. -/
theorem zero_word (i : S_.Idx) : (sitofp (F := Ideal) .f32 (constantI S_ 32 0#32)) i = 0 := by
  show (((0#32 : BitVec 32).toInt : ℝ) : EReal) = 0
  simp

/-- A table of 512 columns padded on the right of its column axis to 1024 columns with a value that is zero
    is the table extended by zeros. -/
theorem pad512 {R : Nat} (x : Arr R 512) (v : S_.Idx → EReal) (hv : ∀ i, v i = 0)
    (hp : (⟨2, ![R, 512]⟩ : Shape).Pads ![0, 0] ![0, 512] ![0, 0] ⟨2, ![R, 1024]⟩) (hu : 0 < S_.numel) :
    pad ⟨2, ![R, 1024]⟩ ![0, 0] ![0, 512] ![0, 0] x v hp hu = padCols x := by
  funext i
  obtain ⟨b, j, rfl⟩ : ∃ (b : Fin R) (j : Fin 1024), i = ix2 b j := ⟨i 0, i 1, eq_ix2 i⟩
  rw [padCols_ix2]
  by_cases h : j.val < 512
  · rw [dif_pos h]
    exact pad_apply_of_inside _ _ _ x v hp hu _ (ix2 b ⟨j.val, h⟩) (fun a => match a with
      | ⟨0, _⟩ => by show b.val = 0 + b.val * (0 + 1); omega
      | ⟨1, _⟩ => by show j.val = 0 + j.val * (0 + 1); omega)
  · rw [dif_neg h, pad_apply_of_not_inside _ _ _ x v hp hu _ (1 : Fin 2)
      (by show ¬(0 ≤ j.val ∧ (j.val - 0) % (0 + 1) = 0 ∧ (j.val - 0) / (0 + 1) < 512); omega), hv]

variable (m : (ℓ : Loc nD τ sig) → Buf (Elt Ideal) ℓ)

/-! ## The per-gate diagonal corrections, as the host computes them -/

/-- corr_x[g, i] = sum over the rank axis of Ux[i, :] * Vx[1024 g + i, :], for i < 512: the host's reshape,
    broadcasts, slice, product and sum, kept as one term. -/
def corrX (Ux : S512x128.Idx → EReal) (Vx : S4096x128.Idx → EReal) : S4x512.Idx → EReal :=
  Host.reduceAdd (F := Ideal)
    (mulf (F := Ideal) (φ := .f32) (broadcastInDim S4x512x128 ![0, 1, 2] Facts₀.bcast_S1x512x128_S4x512x128_0_1_2
        (broadcastInDim S1x512x128 ![1, 2] Facts₀.bcast_S512x128_S1x512x128_1_2 Ux))
      (extractStridedSlice S4x512x128 ![0, 0, 0] (shapeCast S4x1024x128 Vx Facts₀.shapeCasts_S4096x128_S4x1024x128)
        Facts₀.slices_S4x1024x128_S4x512x128_0_0_0))
    (constant (F := Ideal) S_ .f32 0x00000000#32) Facts₀.reducesTo_S4x512x128_S4x512_d2 Facts₀.h_S_

/-- corr_h[g, i] = sum over the rank axis of Uh[i, :] * Vh[1024 g + i, :]. -/
def corrH (Uh : S1024x128.Idx → EReal) (Vh : S4096x128.Idx → EReal) : S4x1024.Idx → EReal :=
  Host.reduceAdd (F := Ideal)
    (mulf (F := Ideal) (φ := .f32) (broadcastInDim S4x1024x128 ![0, 1, 2] Facts₀.bcast_S1x1024x128_S4x1024x128_0_1_2
        (broadcastInDim S1x1024x128 ![1, 2] Facts₀.bcast_S1024x128_S1x1024x128_1_2 Uh))
      (shapeCast S4x1024x128 Vh Facts₀.shapeCasts_S4096x128_S4x1024x128))
    (constant (F := Ideal) S_ .f32 0x00000000#32) Facts₀.reducesTo_S4x1024x128_S4x1024_d2 Facts₀.h_S_

/-! ## Each array the region reads -/

theorem V_v0 (c : Dev nD) : (V m c main_v0 : S4096x1024.Idx → EReal) = padCols (m ((c : Thread nD τ).loc main_arg0)) := by
  have e : (V m c main_v0 : S4096x1024.Idx → EReal)
      = pad S4096x1024 ![0, 0] ![0, 512] ![0, 0] (m ((c : Thread nD τ).loc main_arg0) : S4096x512.Idx → EReal)
          (sitofp (F := Ideal) .f32 (constantI S_ 32 0#32)) Facts₀.pads_S4096x512_S4096x1024_000_05120 Facts₀.h_S_ := by
    dsimp only [V]
    simp only [hostOps0, hostOps0_1, hostOps0_2, hostOps0_3, hostOps0_4, hostOps0_5, hostOps0_6, List.flatten_cons, List.flatten_nil,
      List.append_nil, List.cons_append, List.nil_append]
    after_results
    rfl
  rw [e]; exact pad512 _ _ zero_word _ _

theorem V_v13 (c : Dev nD) : (V m c main_v13 : S1x1024.Idx → EReal) = padCols (m ((c : Thread nD τ).loc main_arg9)) := by
  have e : (V m c main_v13 : S1x1024.Idx → EReal)
      = pad S1x1024 ![0, 0] ![0, 512] ![0, 0] (m ((c : Thread nD τ).loc main_arg9) : S1x512.Idx → EReal)
          (sitofp (F := Ideal) .f32 (constantI S_ 32 0#32)) Facts₀.pads_S1x512_S1x1024_000_05120 Facts₀.h_S_ := by
    dsimp only [V]
    simp only [hostOps0, hostOps0_1, hostOps0_2, hostOps0_3, hostOps0_4, hostOps0_5, hostOps0_6, List.flatten_cons, List.flatten_nil,
      List.append_nil, List.cons_append, List.nil_append]
    after_results
    rfl
  rw [e]; exact pad512 _ _ zero_word _ _

theorem V_v7 (c : Dev nD) : (V m c main_v7 : S4x1024.Idx → EReal)
    = padCols (corrX (m ((c : Thread nD τ).loc main_arg3)) (m ((c : Thread nD τ).loc main_arg5))) := by
  have e : (V m c main_v7 : S4x1024.Idx → EReal)
      = pad S4x1024 ![0, 0] ![0, 512] ![0, 0] (corrX (m ((c : Thread nD τ).loc main_arg3)) (m ((c : Thread nD τ).loc main_arg5)))
          (sitofp (F := Ideal) .f32 (constantI S_ 32 0#32)) Facts₀.pads_S4x512_S4x1024_000_05120 Facts₀.h_S_ := by
    dsimp only [V]
    simp only [hostOps0, hostOps0_1, hostOps0_2, hostOps0_3, hostOps0_4, hostOps0_5, hostOps0_6, List.flatten_cons, List.flatten_nil,
      List.append_nil, List.cons_append, List.nil_append]
    after_results
    rfl
  rw [e]; exact pad512 _ _ zero_word _ _

theorem V_v12 (c : Dev nD) : (V m c main_v12 : S4x1024.Idx → EReal)
    = corrH (m ((c : Thread nD τ).loc main_arg4)) (m ((c : Thread nD τ).loc main_arg6)) := by
  dsimp only [V]
  simp only [hostOps0, hostOps0_1, hostOps0_2, hostOps0_3, hostOps0_4, hostOps0_5, hostOps0_6, List.flatten_cons, List.flatten_nil,
    List.append_nil, List.cons_append, List.nil_append]
  after_results
  rfl

theorem V_v16 (c : Dev nD) : (V m c main_v16 : S512x128.Idx → EReal) = m ((c : Thread nD τ).loc main_arg3) := by
  dsimp only [V]
  simp only [hostOps0, hostOps0_1, hostOps0_2, hostOps0_3, hostOps0_4, hostOps0_5, hostOps0_6, List.flatten_cons, List.flatten_nil,
    List.append_nil, List.cons_append, List.nil_append]
  after_results
  rfl

theorem V_v17 (c : Dev nD) : (V m c main_v17 : S1024x128.Idx → EReal) = m ((c : Thread nD τ).loc main_arg4) := by
  dsimp only [V]
  simp only [hostOps0, hostOps0_1, hostOps0_2, hostOps0_3, hostOps0_4, hostOps0_5, hostOps0_6, List.flatten_cons, List.flatten_nil,
    List.append_nil, List.cons_append, List.nil_append]
  after_results
  rfl

/-- The transpose the host writes, read at an entry. -/
theorem transpose_eq (Vx : S4096x128.Idx → EReal) (h : S4096x128.Transposes [1, 0] S128x4096) :
    transpose S128x4096 [1, 0] Vx h = transp Vx := by
  funext i
  obtain ⟨w, n, rfl⟩ : ∃ (w : Fin 128) (n : Fin 4096), i = ix2 w n := ⟨i 0, i 1, eq_ix2 i⟩
  rw [transp_ix2]
  exact transpose_apply [1, 0] Vx h (ix2 w n) (ix2 n w) (fun a => match a with
    | ⟨0, _⟩ => rfl
    | ⟨1, _⟩ => rfl)

theorem V_v19 (c : Dev nD) : (V m c main_v19 : S128x4096.Idx → EReal) = transp (m ((c : Thread nD τ).loc main_arg5)) := by
  have e : (V m c main_v19 : S128x4096.Idx → EReal)
      = transpose S128x4096 [1, 0] (m ((c : Thread nD τ).loc main_arg5) : S4096x128.Idx → EReal) Facts₀.transposes_S4096x128_S128x4096_1_0 := by
    dsimp only [V]
    simp only [hostOps0, hostOps0_1, hostOps0_2, hostOps0_3, hostOps0_4, hostOps0_5, hostOps0_6, List.flatten_cons, List.flatten_nil,
      List.append_nil, List.cons_append, List.nil_append]
    after_results
    rfl
  rw [e]; exact transpose_eq _ _

theorem V_v21 (c : Dev nD) : (V m c main_v21 : S128x4096.Idx → EReal) = transp (m ((c : Thread nD τ).loc main_arg6)) := by
  have e : (V m c main_v21 : S128x4096.Idx → EReal)
      = transpose S128x4096 [1, 0] (m ((c : Thread nD τ).loc main_arg6) : S4096x128.Idx → EReal) Facts₀.transposes_S4096x128_S128x4096_1_0 := by
    dsimp only [V]
    simp only [hostOps0, hostOps0_1, hostOps0_2, hostOps0_3, hostOps0_4, hostOps0_5, hostOps0_6, List.flatten_cons, List.flatten_nil,
      List.append_nil, List.cons_append, List.nil_append]
    after_results
    rfl
  rw [e]; exact transpose_eq _ _

/-- A vector reshaped to one row, read at an entry. -/
theorem reshape_row (b : S4096.Idx → EReal) (h : S4096.ShapeCasts S1x4096) : shapeCast S1x4096 b h = asRow b := by
  funext i
  obtain ⟨z, n, rfl⟩ : ∃ (z : Fin 1) (n : Fin 4096), i = ix2 z n := ⟨i 0, i 1, eq_ix2 i⟩
  rw [asRow_ix2]
  exact shapeCast_apply b h (ix2 z n) (ix1 n) (by
    rw [Shape.rowMajor_val_two, Shape.rowMajor_val_one]
    have hz : z.val = 0 := by omega
    show n.val = z.val * 4096 + n.val
    omega)

theorem V_v14 (c : Dev nD) : (V m c main_v14 : S1x4096.Idx → EReal) = asRow (m ((c : Thread nD τ).loc main_arg7)) := by
  have e : (V m c main_v14 : S1x4096.Idx → EReal)
      = shapeCast S1x4096 (m ((c : Thread nD τ).loc main_arg7) : S4096.Idx → EReal) Facts₀.shapeCasts_S4096_S1x4096 := by
    dsimp only [V]
    simp only [hostOps0, hostOps0_1, hostOps0_2, hostOps0_3, hostOps0_4, hostOps0_5, hostOps0_6, List.flatten_cons, List.flatten_nil,
      List.append_nil, List.cons_append, List.nil_append]
    after_results
    rfl
  rw [e]; exact reshape_row _ _

theorem V_v15 (c : Dev nD) : (V m c main_v15 : S1x4096.Idx → EReal) = asRow (m ((c : Thread nD τ).loc main_arg8)) := by
  have e : (V m c main_v15 : S1x4096.Idx → EReal)
      = shapeCast S1x4096 (m ((c : Thread nD τ).loc main_arg8) : S4096.Idx → EReal) Facts₀.shapeCasts_S4096_S1x4096 := by
    dsimp only [V]
    simp only [hostOps0, hostOps0_1, hostOps0_2, hostOps0_3, hostOps0_4, hostOps0_5, hostOps0_6, List.flatten_cons, List.flatten_nil,
      List.append_nil, List.cons_append, List.nil_append]
    after_results
    rfl
  rw [e]; exact reshape_row _ _

end Cert.Cell.KerHost

end
-- ==== Proof.KerArray.lean ====
/-
  From the kernel's tiles to its two result arrays.  Grid point t (of 16) works on rows 256 t .. 256 t + 255 of the
  padded input, the hidden state and the cell state, reads every weight table whole, and writes rows
  256 t .. 256 t + 255 of the two results.  Given what the body stores in a tile, entry by entry, as the cell
  function of the tile's row (the two hypotheses `PayC`, `PayH`), each result array after the run is the cell
  function of the corresponding row of the arrays the region reads, at every entry: the sixteen tiles cover the
  4096 rows.
-/
import proofs.«179790_j26680336843034_1_alg».proof.Proof.Gen.KernelIdeal.Value
import proofs.«179790_j26680336843034_1_alg».proof.Proof.CellSpec
import Idealize.ShloMosaic.Lib.Pipeline.Value

set_option maxRecDepth 16384

noncomputable section

namespace Cert.Cell.KerArray

open Cert.Cell Idealize.ShloMosaic Idealize.ShloMosaic.ValueIdx Idealize.ShloMosaic.TcCoe Idealize.SL.Sem
open Cert.KernelIdeal Cert.KernelIdeal.Gen
open Idealize.ShloMosaic.Pipeline (Dat)

/-- What the body stores in the cell-state tile, entry by entry: the cell function of the tile's row. -/
def PayC : Prop := ∀ (x0 x1 x2 : Vec Ideal S256x1024 .f32) (x3 : Vec Ideal S512x128 .bf16) (x4 : Vec Ideal S128x4096 .bf16) (x5 : Vec Ideal S1024x128 .bf16) (x6 : Vec Ideal S128x4096 .bf16) (x7 x8 : Vec Ideal S1x4096 .f32) (x9 x10 : Vec Ideal S4x1024 .f32) (x11 x12 : Vec Ideal S1x1024 .f32) (r : Fin 256) (j : Fin 1024),
    out0_14 (F := Ideal) x0 x1 x2 x3 x4 x5 x6 x7 x8 x9 x10 x11 x12 (ix2 r j)
      = cnext (rowOf x0 r) (rowOf x1 r) (rowOf x2 r) x3 x4 x5 x6 x7 x8 x9 x10 x11 x12 j

/-- What the body stores in the hidden-state tile, entry by entry. -/
def PayH : Prop := ∀ (x0 x1 x2 : Vec Ideal S256x1024 .f32) (x3 : Vec Ideal S512x128 .bf16) (x4 : Vec Ideal S128x4096 .bf16) (x5 : Vec Ideal S1024x128 .bf16) (x6 : Vec Ideal S128x4096 .bf16) (x7 x8 : Vec Ideal S1x4096 .f32) (x9 x10 : Vec Ideal S4x1024 .f32) (x11 x12 : Vec Ideal S1x1024 .f32) (r : Fin 256) (j : Fin 1024),
    out0_13 (F := Ideal) x0 x1 x2 x3 x4 x5 x6 x7 x8 x9 x10 x11 x12 (ix2 r j)
      = hnext (rowOf x0 r) (rowOf x1 r) (rowOf x2 r) x3 x4 x5 x6 x7 x8 x9 x10 x11 x12 j

variable (m : (ℓ : Loc nD τ sig) → Buf (Elt Ideal) ℓ) (ρ : Dev nD → PrngReg)

/-! ## The input tiles at a grid point, typed by their literal shapes -/

abbrev blk0 (c : Dev nD) (t : Fin cfg0.N) : Vec Ideal S256x1024 .f32 := iblk m c 0 t
abbrev blk1 (c : Dev nD) (t : Fin cfg0.N) : Vec Ideal S256x1024 .f32 := iblk m c 1 t
abbrev blk2 (c : Dev nD) (t : Fin cfg0.N) : Vec Ideal S256x1024 .f32 := iblk m c 2 t
abbrev blk3 (c : Dev nD) (t : Fin cfg0.N) : Vec Ideal S512x128 .bf16 := iblk m c 3 t
abbrev blk4 (c : Dev nD) (t : Fin cfg0.N) : Vec Ideal S128x4096 .bf16 := iblk m c 4 t
abbrev blk5 (c : Dev nD) (t : Fin cfg0.N) : Vec Ideal S1024x128 .bf16 := iblk m c 5 t
abbrev blk6 (c : Dev nD) (t : Fin cfg0.N) : Vec Ideal S128x4096 .bf16 := iblk m c 6 t
abbrev blk7 (c : Dev nD) (t : Fin cfg0.N) : Vec Ideal S1x4096 .f32 := iblk m c 7 t
abbrev blk8 (c : Dev nD) (t : Fin cfg0.N) : Vec Ideal S1x4096 .f32 := iblk m c 8 t
abbrev blk9 (c : Dev nD) (t : Fin cfg0.N) : Vec Ideal S4x1024 .f32 := iblk m c 9 t
abbrev blk10 (c : Dev nD) (t : Fin cfg0.N) : Vec Ideal S4x1024 .f32 := iblk m c 10 t
abbrev blk11 (c : Dev nD) (t : Fin cfg0.N) : Vec Ideal S1x1024 .f32 := iblk m c 11 t
abbrev blk12 (c : Dev nD) (t : Fin cfg0.N) : Vec Ideal S1x1024 .f32 := iblk m c 12 t

/-! ## The arrays the region reads, typed by their literal shapes -/

abbrev aX (c : Dev nD) : Arr 4096 1024 := V m c main_v0
abbrev aH (c : Dev nD) : Arr 4096 1024 := V m c main_arg1
abbrev aC (c : Dev nD) : Arr 4096 1024 := V m c main_arg2
abbrev aUx (c : Dev nD) : Arr 512 128 := V m c main_v16
abbrev aVxT (c : Dev nD) : Arr 128 4096 := V m c main_v19
abbrev aUh (c : Dev nD) : Arr 1024 128 := V m c main_v17
abbrev aVhT (c : Dev nD) : Arr 128 4096 := V m c main_v21
abbrev aBx (c : Dev nD) : Arr 1 4096 := V m c main_v14
abbrev aBh (c : Dev nD) : Arr 1 4096 := V m c main_v15
abbrev aCx (c : Dev nD) : Arr 4 1024 := V m c main_v7
abbrev aCh (c : Dev nD) : Arr 4 1024 := V m c main_v12
abbrev aDx (c : Dev nD) : Arr 1 1024 := V m c main_v13
abbrev aDh (c : Dev nD) : Arr 1 1024 := V m c main_arg10

/-- The cell-state result as one function of the arrays the region reads. -/
def Gc (c : Dev nD) : S4096x1024.Idx → EReal := fun i =>
  cnext (rowOf (aX m c) ⟨(i 0).val, (i 0).isLt⟩) (rowOf (aH m c) ⟨(i 0).val, (i 0).isLt⟩) (rowOf (aC m c) ⟨(i 0).val, (i 0).isLt⟩)
    (aUx m c) (aVxT m c) (aUh m c) (aVhT m c) (aBx m c) (aBh m c) (aCx m c) (aCh m c) (aDx m c) (aDh m c) ⟨(i 1).val, (i 1).isLt⟩

/-- The hidden-state result as one function of the arrays the region reads. -/
def Gh (c : Dev nD) : S4096x1024.Idx → EReal := fun i =>
  hnext (rowOf (aX m c) ⟨(i 0).val, (i 0).isLt⟩) (rowOf (aH m c) ⟨(i 0).val, (i 0).isLt⟩) (rowOf (aC m c) ⟨(i 0).val, (i 0).isLt⟩)
    (aUx m c) (aVxT m c) (aUh m c) (aVhT m c) (aBx m c) (aBh m c) (aCx m c) (aCh m c) (aDx m c) (aDh m c) ⟨(i 1).val, (i 1).isLt⟩

theorem Gc_ix2 (c : Dev nD) (b : Fin 4096) (j : Fin 1024) : Gc m c (ix2 b j)
    = cnext (rowOf (aX m c) b) (rowOf (aH m c) b) (rowOf (aC m c) b)
        (aUx m c) (aVxT m c) (aUh m c) (aVhT m c) (aBx m c) (aBh m c) (aCx m c) (aCh m c) (aDx m c) (aDh m c) j := rfl

theorem Gh_ix2 (c : Dev nD) (b : Fin 4096) (j : Fin 1024) : Gh m c (ix2 b j)
    = hnext (rowOf (aX m c) b) (rowOf (aH m c) b) (rowOf (aC m c) b)
        (aUx m c) (aVxT m c) (aUh m c) (aVhT m c) (aBx m c) (aBh m c) (aCx m c) (aCh m c) (aDx m c) (aDh m c) j := rfl

/-! ## Where each window's tile sits -/

/-- The printed index maps over the sixteen grid points: the three row-tiled inputs and the two outputs are at
    row block t and column block 0; every table is at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

theorem tbl_facts : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

theorem t_lt (t : Fin cfg0.N) : t.val < 16 := t.isLt

/-- Row `r` of tile `t` is row 256 t + r of the array. -/
def rowAt (t : Fin cfg0.N) (r : Fin 256) : Fin 4096 := ⟨t.val * 256 + r.val, by have := t_lt t; omega⟩

/-! ## The tiles read off the arrays -/

theorem row_blk0 (c : Dev nD) (t : Fin cfg0.N) (r : Fin 256) : rowOf (blk0 m c t) r = rowOf (aX m c) (rowAt t r) := by
  obtain ⟨⟨e0, e1⟩, -⟩ := idx_facts t
  funext k
  show V m c main_v0 (((cfg0.win 0).blk t).view.emb (ix2 r k)) = V m c main_v0 (ix2 (rowAt t r) k)
  refine congrArg _ (funext fun a => Fin.ext ?_)
  match a with
  | ⟨0, _⟩ => show win0_0.index t (0 : Fin 2) * 256 + 1 * r.val = t.val * 256 + r.val; omega
  | ⟨1, _⟩ => show win0_0.index t (1 : Fin 2) * 1024 + 1 * k.val = k.val; omega

theorem row_blk1 (c : Dev nD) (t : Fin cfg0.N) (r : Fin 256) : rowOf (blk1 m c t) r = rowOf (aH m c) (rowAt t r) := by
  obtain ⟨-, ⟨e0, e1⟩, -⟩ := idx_facts t
  funext k
  show V m c main_arg1 (((cfg0.win 1).blk t).view.emb (ix2 r k)) = V m c main_arg1 (ix2 (rowAt t r) k)
  refine congrArg _ (funext fun a => Fin.ext ?_)
  match a with
  | ⟨0, _⟩ => show win0_1.index t (0 : Fin 2) * 256 + 1 * r.val = t.val * 256 + r.val; omega
  | ⟨1, _⟩ => show win0_1.index t (1 : Fin 2) * 1024 + 1 * k.val = k.val; omega

theorem row_blk2 (c : Dev nD) (t : Fin cfg0.N) (r : Fin 256) : rowOf (blk2 m c t) r = rowOf (aC m c) (rowAt t r) := by
  obtain ⟨-, -, ⟨e0, e1⟩, -⟩ := idx_facts t
  funext k
  show V m c main_arg2 (((cfg0.win 2).blk t).view.emb (ix2 r k)) = V m c main_arg2 (ix2 (rowAt t r) k)
  refine congrArg _ (funext fun a => Fin.ext ?_)
  match a with
  | ⟨0, _⟩ => show win0_2.index t (0 : Fin 2) * 256 + 1 * r.val = t.val * 256 + r.val; omega
  | ⟨1, _⟩ => show win0_2.index t (1 : Fin 2) * 1024 + 1 * k.val = k.val; omega

theorem tbl_blk3 (c : Dev nD) (t : Fin cfg0.N) : blk3 m c t = aUx m c := by
  obtain ⟨⟨e0, e1⟩, -⟩ := tbl_facts t
  funext y
  show V m c main_v16 (((cfg0.win 3).blk t).view.emb y) = V m c main_v16 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 128 + 1 * (y 1).val = (y 1).val; omega

theorem tbl_blk4 (c : Dev nD) (t : Fin cfg0.N) : blk4 m c t = aVxT m c := by
  obtain ⟨-, ⟨e0, e1⟩, -⟩ := tbl_facts t
  funext y
  show V m c main_v19 (((cfg0.win 4).blk t).view.emb y) = V m c main_v19 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 4096 + 1 * (y 1).val = (y 1).val; omega

theorem tbl_blk5 (c : Dev nD) (t : Fin cfg0.N) : blk5 m c t = aUh m c := by
  obtain ⟨-, -, ⟨e0, e1⟩, -⟩ := tbl_facts t
  funext y
  show V m c main_v17 (((cfg0.win 5).blk t).view.emb y) = V m c main_v17 y
  refine congrArg _ (funext fun a => Fin.ext ?_)
  match a with
  | ⟨0, _⟩ => show win0_5.index t (0 : Fin 2) * 1024 + 1 * (y 0).val = (y 0).val; omega
  | ⟨1, _⟩ => show win0_5.index t (1 : Fin 2) * 128 + 1 * (y 1).val = (y 1).val; omega

theorem tbl_blk6 (c : Dev nD) (t : Fin cfg0.N) : blk6 m c t = aVhT m c := by
  obtain ⟨-, -, -, ⟨e0, e1⟩, -⟩ := tbl_facts t
  funext y
  show V m c main_v21 (((cfg0.win 6).blk t).view.emb y) = V m c main_v21 y
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 4096 + 1 * (y 1).val = (y 1).val; omega

theorem tbl_blk7 (c : Dev nD) (t : Fin cfg0.N) : blk7 m c t = aBx m c := by
  obtain ⟨-, -, -, -, ⟨e0, e1⟩, -⟩ := tbl_facts t
  funext y
  show V m c main_v14 (((cfg0.win 7).blk t).view.emb y) = V m c main_v14 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 4096 + 1 * (y 1).val = (y 1).val; omega

theorem tbl_blk8 (c : Dev nD) (t : Fin cfg0.N) : blk8 m c t = aBh m c := by
  obtain ⟨-, -, -, -, -, ⟨e0, e1⟩, -⟩ := tbl_facts t
  funext y
  show V m c main_v15 (((cfg0.win 8).blk t).view.emb y) = V m c main_v15 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 4096 + 1 * (y 1).val = (y 1).val; omega

theorem tbl_blk9 (c : Dev nD) (t : Fin cfg0.N) : blk9 m c t = aCx m c := by
  obtain ⟨-, -, -, -, -, -, ⟨e0, e1⟩, -⟩ := tbl_facts t
  funext y
  show V m c main_v7 (((cfg0.win 9).blk t).view.emb y) = V m c main_v7 y
  refine congrArg _ (funext fun a => Fin.ext ?_)
  match a with
  | ⟨0, _⟩ => show win0_9.index t (0 : Fin 2) * 4 + 1 * (y 0).val = (y 0).val; omega
  | ⟨1, _⟩ => show win0_9.index t (1 : Fin 2) * 1024 + 1 * (y 1).val = (y 1).val; omega

theorem tbl_blk10 (c : Dev nD) (t : Fin cfg0.N) : blk10 m c t = aCh m c := by
  obtain ⟨-, -, -, -, -, -, -, ⟨e0, e1⟩, -⟩ := tbl_facts t
  funext y
  show V m c main_v12 (((cfg0.win 10).blk t).view.emb y) = V m c main_v12 y
  refine congrArg _ (funext fun a => Fin.ext ?_)
  match a with
  | ⟨0, _⟩ => show win0_10.index t (0 : Fin 2) * 4 + 1 * (y 0).val = (y 0).val; omega
  | ⟨1, _⟩ => show win0_10.index t (1 : Fin 2) * 1024 + 1 * (y 1).val = (y 1).val; omega

theorem tbl_blk11 (c : Dev nD) (t : Fin cfg0.N) : blk11 m c t = aDx m c := by
  obtain ⟨-, -, -, -, -, -, -, -, ⟨e0, e1⟩, -⟩ := tbl_facts t
  funext y
  show V m c main_v13 (((cfg0.win 11).blk t).view.emb y) = V m c main_v13 y
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 1024 + 1 * (y 1).val = (y 1).val; omega

theorem tbl_blk12 (c : Dev nD) (t : Fin cfg0.N) : blk12 m c t = aDh m c := by
  obtain ⟨-, -, -, -, -, -, -, -, -, ⟨e0, e1⟩⟩ := tbl_facts t
  funext y
  show V m c main_arg10 (((cfg0.win 12).blk t).view.emb y) = V m c main_arg10 y
  refine congrArg _ (funext fun a => Fin.ext ?_)
  match a with
  | ⟨0, _⟩ => show win0_12.index t (0 : Fin 2) * 1 + 1 * (y 0).val = (y 0).val; omega
  | ⟨1, _⟩ => show win0_12.index t (1 : Fin 2) * 1024 + 1 * (y 1).val = (y 1).val; omega

/-! ## What a grid point writes back -/

theorem emb14 (t : Fin cfg0.N) (r : Fin 256) (j : Fin 1024) :
    ((cfg0.win 14).blk t).view.emb (ix2 r j) = ix2 (rowAt t r) j := by
  obtain ⟨-, -, -, -, ⟨e0, e1⟩⟩ := idx_facts t
  funext a; apply Fin.ext
  match a with
  | ⟨0, _⟩ => show win0_14.index t (0 : Fin 2) * 256 + 1 * r.val = t.val * 256 + r.val; omega
  | ⟨1, _⟩ => show win0_14.index t (1 : Fin 2) * 1024 + 1 * j.val = j.val; omega

theorem emb13 (t : Fin cfg0.N) (r : Fin 256) (j : Fin 1024) :
    ((cfg0.win 13).blk t).view.emb (ix2 r j) = ix2 (rowAt t r) j := by
  obtain ⟨-, -, -, ⟨e0, e1⟩, -⟩ := idx_facts t
  funext a; apply Fin.ext
  match a with
  | ⟨0, _⟩ => show win0_13.index t (0 : Fin 2) * 256 + 1 * r.val = t.val * 256 + r.val; omega
  | ⟨1, _⟩ => show win0_13.index t (1 : Fin 2) * 1024 + 1 * j.val = j.val; omega

/-- What point `t` writes back to the cell-state array is tile `t` of `Gc`. -/
theorem flushed14_eq (hpay : PayC) (c : Dev nD) (t : Fin cfg0.N) :
    (dats m 0 c).flushed 14 t = ((cfg0.win 14).blk t).view.read (Elt Ideal) (Gc m c) := by
  rw [Value.flushed14]
  funext y
  obtain ⟨r, j, rfl⟩ : ∃ (r : Fin 256) (j : Fin 1024), y = ix2 r j := ⟨y 0, y 1, eq_ix2 y⟩
  show out0_14 (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (ix2 r j) = Gc m c (((cfg0.win 14).blk t).view.emb (ix2 r j))
  rw [emb14, Gc_ix2]
  refine (hpay (blk0 m c t) (blk1 m c t) (blk2 m c t) (blk3 m c t) (blk4 m c t) (blk5 m c t) (blk6 m c t) (blk7 m c t) (blk8 m c t) (blk9 m c t) (blk10 m c t) (blk11 m c t) (blk12 m c t) r j).trans ?_
  rw [row_blk0, row_blk1, row_blk2, tbl_blk3, tbl_blk4, tbl_blk5, tbl_blk6, tbl_blk7, tbl_blk8, tbl_blk9, tbl_blk10, tbl_blk11, tbl_blk12]

/-- What point `t` writes back to the hidden-state array is tile `t` of `Gh`. -/
theorem flushed13_eq (hpay : PayH) (c : Dev nD) (t : Fin cfg0.N) :
    (dats m 0 c).flushed 13 t = ((cfg0.win 13).blk t).view.read (Elt Ideal) (Gh m c) := by
  rw [Value.flushed13]
  funext y
  obtain ⟨r, j, rfl⟩ : ∃ (r : Fin 256) (j : Fin 1024), y = ix2 r j := ⟨y 0, y 1, eq_ix2 y⟩
  show out0_13 (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (ix2 r j) = Gh m c (((cfg0.win 13).blk t).view.emb (ix2 r j))
  rw [emb13, Gh_ix2]
  refine (hpay (blk0 m c t) (blk1 m c t) (blk2 m c t) (blk3 m c t) (blk4 m c t) (blk5 m c t) (blk6 m c t) (blk7 m c t) (blk8 m c t) (blk9 m c t) (blk10 m c t) (blk11 m c t) (blk12 m c t) r j).trans ?_
  rw [row_blk0, row_blk1, row_blk2, tbl_blk3, tbl_blk4, tbl_blk5, tbl_blk6, tbl_blk7, tbl_blk8, tbl_blk9, tbl_blk10, tbl_blk11, tbl_blk12]

/-! ## The sixteen tiles cover the 4096 rows -/

theorem idx_onto14 : ∀ q : Fin 16, ∃ t : Fin cfg0.N, win0_14.index t = ![q.val, 0] :=
  (by decide +kernel : ∀ q : Fin 16, ∃ t : Fin grid0.N, win0_14.index t = ![q.val, 0])

theorem idx_onto13 : ∀ q : Fin 16, ∃ t : Fin cfg0.N, win0_13.index t = ![q.val, 0] :=
  (by decide +kernel : ∀ q : Fin 16, ∃ t : Fin grid0.N, win0_13.index t = ![q.val, 0])

theorem mem_blk14 (t : Fin cfg0.N) (i : S4096x1024.Idx) :
    i ∈ ((cfg0.win 14).blk t).view.set ↔ ∀ a : Fin 2, win0_14.index t a * S256x1024.size a ≤ (i a).val ∧ (i a).val < win0_14.index t a * S256x1024.size a + S256x1024.size a := by
  show i ∈ ((View.whole main_v22_1).slice (win0_14.rect t)).set ↔ _
  rw [View.set_slice_whole, Rect.mem_set_unit]
  exact Iff.rfl

theorem mem_blk13 (t : Fin cfg0.N) (i : S4096x1024.Idx) :
    i ∈ ((cfg0.win 13).blk t).view.set ↔ ∀ a : Fin 2, win0_13.index t a * S256x1024.size a ≤ (i a).val ∧ (i a).val < win0_13.index t a * S256x1024.size a + S256x1024.size a := by
  show i ∈ ((View.whole main_v22_0).slice (win0_13.rect t)).set ↔ _
  rw [View.set_slice_whole, Rect.mem_set_unit]
  exact Iff.rfl

theorem cover14 (i : S4096x1024.Idx) : ∃ t : Fin cfg0.N, (cfg0.win 14).flush t = true ∧ i ∈ ((cfg0.win 14).blk t).view.set := by
  have hi0 : (i 0).val < 4096 := (i 0).isLt
  have hi1 : (i 1).val < 1024 := (i 1).isLt
  obtain ⟨t, ht⟩ := idx_onto14 ⟨(i 0).val / 256, by omega⟩
  have q0 : win0_14.index t (0 : Fin 2) = (i 0).val / 256 := congrFun ht 0
  have q1 : win0_14.index t (1 : Fin 2) = 0 := congrFun ht 1
  refine ⟨t, flush0_14 t, ?_⟩
  rw [mem_blk14]
  intro a
  match a with
  | ⟨0, _⟩ => show win0_14.index t (0 : Fin 2) * 256 ≤ (i 0).val ∧ (i 0).val < win0_14.index t (0 : Fin 2) * 256 + 256; omega
  | ⟨1, _⟩ => show win0_14.index t (1 : Fin 2) * 1024 ≤ (i 1).val ∧ (i 1).val < win0_14.index t (1 : Fin 2) * 1024 + 1024; omega

theorem cover13 (i : S4096x1024.Idx) : ∃ t : Fin cfg0.N, (cfg0.win 13).flush t = true ∧ i ∈ ((cfg0.win 13).blk t).view.set := by
  have hi0 : (i 0).val < 4096 := (i 0).isLt
  have hi1 : (i 1).val < 1024 := (i 1).isLt
  obtain ⟨t, ht⟩ := idx_onto13 ⟨(i 0).val / 256, by omega⟩
  have q0 : win0_13.index t (0 : Fin 2) = (i 0).val / 256 := congrFun ht 0
  have q1 : win0_13.index t (1 : Fin 2) = 0 := congrFun ht 1
  refine ⟨t, flush0_13 t, ?_⟩
  rw [mem_blk13]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 1024 ≤ (i 1).val ∧ (i 1).val < win0_13.index t (1 : Fin 2) * 1024 + 1024; omega

/-- The cell-state array after the run. -/
theorem final14 (hpay : PayC) (c : Dev nD) : (dats m 0 c).arrAt 14 cfg0.N = Gc m c :=
  (dats m 0 c).arrAt_eq_of_cover 14 (Gc m c) (fun t _ => flushed14_eq m hpay c t) cover14

/-- The hidden-state array after the run. -/
theorem final13 (hpay : PayH) (c : Dev nD) : (dats m 0 c).arrAt 13 cfg0.N = Gh m c :=
  (dats m 0 c).arrAt_eq_of_cover 13 (Gh m c) (fun t _ => flushed13_eq m hpay c t) cover13

/-! ## The run, read -/

/-- Every weakly fair execution ends with the two results at `Gh` and `Gc` and the arguments unchanged. -/
theorem run (hc : PayC) (hh : PayH) : θ_run defs (onTc (τ := τ) (main (F := Ideal))) ⟨m, fun _ => 0, ρ⟩ fun r => ∀ c : Dev nD,
      r.2.mem ((c : Thread nD τ).loc main_v22_0) = Gh m c
      ∧ r.2.mem ((c : Thread nD τ).loc main_v22_1) = Gc m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final13 m hh c), (h c).2.1.trans (final14 m hc c), (h c).2.2⟩)
    (Value.run_blocks m ρ)

end Cert.Cell.KerArray

end
-- ==== Proof.RefSide.lean ====
/-
  The reference program's two results read at one entry are the long short-term memory cell of
  the shared specification: its new cell state and new hidden state at row b and column j, as one
  function of row b of the (column-padded) input, of the hidden state and of the cell state.
  The intermediate tables are read bottom-up, each at explicit coordinates.
-/
import proofs.«179790_j26680336843034_1_alg».proof.Proof.Gen.ReferenceIdeal.Read
import proofs.«179790_j26680336843034_1_alg».proof.Proof.CellSpec
import Idealize.ShloMosaic.Lib.KernelVsHost
import Idealize.ShloMosaic.Lib.IdealHost

noncomputable section

namespace Cert.Cell.Ref
open Cert.Cell Idealize.ShloMosaic Idealize.ShloMosaic.ValueIdx Cert.ReferenceIdeal Cert.ReferenceIdeal.Read

section Reads

variable (x0 : (⟨S4096x512, .f32⟩ : BufTy).Contents (Elt Ideal)) (x1 x2 : (⟨S4096x1024, .f32⟩ : BufTy).Contents (Elt Ideal))
  (x3 : (⟨S512x128, .f32⟩ : BufTy).Contents (Elt Ideal)) (x4 : (⟨S1024x128, .f32⟩ : BufTy).Contents (Elt Ideal))
  (x5 x6 : (⟨S4096x128, .f32⟩ : BufTy).Contents (Elt Ideal)) (x7 x8 : (⟨S4096, .f32⟩ : BufTy).Contents (Elt Ideal))
  (x9 : (⟨S1x512, .f32⟩ : BufTy).Contents (Elt Ideal)) (x10 : (⟨S1x1024, .f32⟩ : BufTy).Contents (Elt Ideal))

/-- The low-rank product of the input: (x · Ux) · Vxᵀ at row b, column n. -/
theorem lowered_x (b n : Fin 4096) :
    val_main_v2 (F := Ideal) x0 x3 x5 (ix2 b n) = lowX (rowOf (padCols x0) b) x3 (transp x5) n := by
  rw [val_main_v2_apply]
  unfold lowX
  refine Finset.sum_congr rfl fun w _ => ?_
  rw [val_main_v0_apply, val_main_v1_apply]
  have e1 : idx_main_v1 (ridx_main_v2 (ix2 b n) w) = ix2 n w :=
    funext fun a => Fin.ext (by match a with | ⟨0, _⟩ => rfl | ⟨1, _⟩ => rfl)
  rw [e1, transp_ix2]
  congr 1
  refine Finset.sum_congr rfl fun k _ => ?_
  have e2 : lidx_main_v0 (lidx_main_v2 (ix2 b n) w) k = ix2 b k :=
    funext fun a => Fin.ext (by match a with | ⟨0, _⟩ => rfl | ⟨1, _⟩ => rfl)
  have e3 : ridx_main_v0 (lidx_main_v2 (ix2 b n) w) k = ix2 k w :=
    funext fun a => Fin.ext (by match a with | ⟨0, _⟩ => rfl | ⟨1, _⟩ => rfl)
  rw [e2, e3, rowOf_apply, padCols_lo]

/-- The low-rank product of the hidden state: (h · Uh) · Vhᵀ at row b, column n. -/
theorem lowered_h (b n : Fin 4096) :
    val_main_v5 (F := Ideal) x1 x4 x6 (ix2 b n) = lowH (rowOf x1 b) x4 (transp x6) n := by
  rw [val_main_v5_apply]
  unfold lowH
  refine Finset.sum_congr rfl fun w _ => ?_
  rw [val_main_v3_apply, val_main_v4_apply]
  have e1 : idx_main_v4 (ridx_main_v5 (ix2 b n) w) = ix2 n w :=
    funext fun a => Fin.ext (by match a with | ⟨0, _⟩ => rfl | ⟨1, _⟩ => rfl)
  rw [e1, transp_ix2]
  congr 1
  refine Finset.sum_congr rfl fun k _ => ?_
  have e2 : lidx_main_v3 (lidx_main_v5 (ix2 b n) w) k = ix2 b k :=
    funext fun a => Fin.ext (by match a with | ⟨0, _⟩ => rfl | ⟨1, _⟩ => rfl)
  have e3 : ridx_main_v3 (lidx_main_v5 (ix2 b n) w) k = ix2 k w :=
    funext fun a => Fin.ext (by match a with | ⟨0, _⟩ => rfl | ⟨1, _⟩ => rfl)
  rw [e2, e3, rowOf_apply]

/-- The padding value of both column pads is the integer zero converted: zero. -/
theorem padval0 (i : S_.Idx) : val_main_call0_v0 (F := Ideal) i = 0 := sitofp_zero (φ := .f32)
theorem padval1 (i : S_.Idx) : val_main_call1_v0 (F := Ideal) i = 0 := sitofp_zero (φ := .f32)

/-- The reshape [4096, 4, 1024] → [4096, 4096] at column 1024 g + j reads (b, g, j). -/
theorem idx18_col (b : Fin 4096) (g : Fin 4) (j : Fin 1024) : idx_main_v18 (ix2 b (col g j)) = ix3 b g j :=
  funext fun a => Fin.ext (by
    match a with
    | ⟨0, _⟩ => show (b.val * 4096 + (g.val * 1024 + j.val)) / 4096 = b.val; omega
    | ⟨1, _⟩ => show (b.val * 4096 + (g.val * 1024 + j.val)) / 1024 % 4 = g.val; omega
    | ⟨2, _⟩ => show (b.val * 4096 + (g.val * 1024 + j.val)) % 1024 = j.val; omega)

theorem idx29_col (b : Fin 4096) (g : Fin 4) (j : Fin 1024) : idx_main_v29 (ix2 b (col g j)) = ix3 b g j :=
  funext fun a => Fin.ext (by
    match a with
    | ⟨0, _⟩ => show (b.val * 4096 + (g.val * 1024 + j.val)) / 4096 = b.val; omega
    | ⟨1, _⟩ => show (b.val * 4096 + (g.val * 1024 + j.val)) / 1024 % 4 = g.val; omega
    | ⟨2, _⟩ => show (b.val * 4096 + (g.val * 1024 + j.val)) % 1024 = j.val; omega)

/-- The input's diagonal correction, padded to 1024 columns per gate and laid gate-major:
    at column 1024 g + j it is x[b, j] · corr_x[g, j] for j < 512 and zero beyond. -/
theorem refined_x (b : Fin 4096) (g : Fin 4) (j : Fin 1024) :
    val_main_v18 (F := Ideal) x0 x3 x5 (ix2 b (col g j))
      = rowOf (padCols x0) b j * padCols (val_main_v11 (F := Ideal) x3 x5) (ix2 g j) := by
  rw [val_main_v18_apply, idx18_col, rowOf_apply]
  unfold val_main_v17
  by_cases h : j.val < 512
  · rw [pad_apply_of_inside _ _ _ _ _ _ _ (ix3 b g j) (ix3 b g (⟨j.val, h⟩ : Fin 512)) (fun a => by
      match a with
      | ⟨0, _⟩ => show b.val = 0 + b.val * (0 + 1); omega
      | ⟨1, _⟩ => show g.val = 0 + g.val * (0 + 1); omega
      | ⟨2, _⟩ => show j.val = 0 + j.val * (0 + 1); omega)]
    have e1 : idx_main_v12 (idx_main_v14 (ix3 b g (⟨j.val, h⟩ : Fin 512))) = ix2 b (⟨j.val, h⟩ : Fin 512) :=
      funext fun a => Fin.ext (by match a with | ⟨0, _⟩ => rfl | ⟨1, _⟩ => rfl)
    have e2 : idx_main_v13 (idx_main_v15 (ix3 b g (⟨j.val, h⟩ : Fin 512))) = ix2 g (⟨j.val, h⟩ : Fin 512) :=
      funext fun a => Fin.ext (by match a with | ⟨0, _⟩ => rfl | ⟨1, _⟩ => rfl)
    rw [val_main_v16_apply, val_main_v14_apply, val_main_v12_apply, val_main_v15_apply, val_main_v13_apply,
      padCols_ix2, dif_pos h, padCols_ix2, dif_pos h, e1, e2]
    rfl
  · rw [pad_apply_of_not_inside _ _ _ _ _ _ _ (ix3 b g j) (2 : Fin 3) (fun hin => h (by
      have h2 : (j.val - 0) / (0 + 1) < 512 := hin.2.2
      omega)), padval0, padCols_hi _ _ _ h, zero_mul]

/-- The hidden state's diagonal correction laid gate-major: h[b, j] · corr_h[g, j] at column 1024 g + j. -/
theorem refined_h (b : Fin 4096) (g : Fin 4) (j : Fin 1024) :
    val_main_v29 (F := Ideal) x1 x4 x6 (ix2 b (col g j))
      = rowOf x1 b j * val_main_v23 (F := Ideal) x4 x6 (ix2 g j) := by
  rw [val_main_v29_apply, idx29_col, rowOf_apply, val_main_v28_apply, val_main_v26_apply, val_main_v24_apply,
    val_main_v27_apply, val_main_v25_apply]
  have e1 : idx_main_v24 (idx_main_v26 (ix3 b g j)) = ix2 b j :=
    funext fun a => Fin.ext (by match a with | ⟨0, _⟩ => rfl | ⟨1, _⟩ => rfl)
  have e2 : idx_main_v25 (idx_main_v27 (ix3 b g j)) = ix2 g j :=
    funext fun a => Fin.ext (by match a with | ⟨0, _⟩ => rfl | ⟨1, _⟩ => rfl)
  rw [e1, e2]
  rfl

/-- The input side's gate term before slicing, at column 1024 g + j: low-rank product minus the
    diagonal correction plus the bias. -/
theorem gx_col (b : Fin 4096) (g : Fin 4) (j : Fin 1024) :
    val_main_v33 (F := Ideal) x0 x3 x5 x7 (ix2 b (col g j))
      = (lowX (rowOf (padCols x0) b) x3 (transp x5) (col g j)
          - rowOf (padCols x0) b j * padCols (val_main_v11 (F := Ideal) x3 x5) (ix2 g j))
        + asRow x7 (ix2 0 (col g j)) := by
  rw [val_main_v33_apply, val_main_v30_apply, lowered_x, refined_x, val_main_v32_apply, val_main_v31_apply, asRow_ix2]
  have e : idx_main_v31 (idx_main_v32 (ix2 b (col g j))) = ix1 (col g j) :=
    funext fun a => Fin.ext (by match a with | ⟨0, _⟩ => rfl)
  rw [e]
  rfl

/-- The hidden side's gate term before slicing, at column 1024 g + j. -/
theorem gh_col (b : Fin 4096) (g : Fin 4) (j : Fin 1024) :
    val_main_v37 (F := Ideal) x1 x4 x6 x8 (ix2 b (col g j))
      = (lowH (rowOf x1 b) x4 (transp x6) (col g j)
          - rowOf x1 b j * val_main_v23 (F := Ideal) x4 x6 (ix2 g j))
        + asRow x8 (ix2 0 (col g j)) := by
  rw [val_main_v37_apply, val_main_v34_apply, lowered_h, refined_h, val_main_v36_apply, val_main_v35_apply, asRow_ix2]
  have e : idx_main_v35 (idx_main_v36 (ix2 b (col g j))) = ix1 (col g j) :=
    funext fun a => Fin.ext (by match a with | ⟨0, _⟩ => rfl)
  rw [e]
  rfl

/-- The diagonal terms: dia_x · x padded with zeros to 1024 columns, plus dia_h · h. -/
theorem diag_add (b : Fin 4096) (j : Fin 1024) :
    val_main_v43 (F := Ideal) x0 x1 x9 x10 (ix2 b j)
      = padCols x9 (ix2 0 j) * rowOf (padCols x0) b j + x10 (ix2 0 j) * rowOf x1 b j := by
  rw [val_main_v43_apply, val_main_v42_apply, val_main_v41_apply, rowOf_apply, rowOf_apply]
  have e : idx_main_v41 (ix2 b j) = ix2 0 j :=
    funext fun a => Fin.ext (by match a with | ⟨0, _⟩ => rfl | ⟨1, _⟩ => rfl)
  rw [e]
  unfold val_main_v40
  by_cases h : j.val < 512
  · rw [pad_apply_of_inside _ _ _ _ _ _ _ (ix2 b j) (ix2 b (⟨j.val, h⟩ : Fin 512)) (fun a => by
      match a with
      | ⟨0, _⟩ => show b.val = 0 + b.val * (0 + 1); omega
      | ⟨1, _⟩ => show j.val = 0 + j.val * (0 + 1); omega)]
    have e2 : idx_main_v38 (ix2 b (⟨j.val, h⟩ : Fin 512)) = ix2 0 (⟨j.val, h⟩ : Fin 512) :=
      funext fun a => Fin.ext (by match a with | ⟨0, _⟩ => rfl | ⟨1, _⟩ => rfl)
    rw [val_main_v39_apply, val_main_v38_apply, padCols_ix2, dif_pos h, padCols_ix2, dif_pos h, e2]
    rfl
  · rw [pad_apply_of_not_inside _ _ _ _ _ _ _ (ix2 b j) (1 : Fin 2) (fun hin => h (by
      have h2 : (j.val - 0) / (0 + 1) < 512 := hin.2.2
      omega)), padval1, padCols_hi _ _ _ h, padCols_hi _ _ _ h, zero_mul]
    rfl

/-! The four column slices of width 1024 read column 1024 g + j of the sliced table. -/
theorem idx44_col (b : Fin 4096) (j : Fin 1024) : idx_main_v44 (ix2 b j) = ix2 b (col 0 j) :=
  funext fun a => Fin.ext (by
    match a with
    | ⟨0, _⟩ => rfl
    | ⟨1, _⟩ => show j.val = 0 * 1024 + j.val; omega)
theorem idx45_col (b : Fin 4096) (j : Fin 1024) : idx_main_v45 (ix2 b j) = ix2 b (col 1 j) :=
  funext fun a => Fin.ext (by
    match a with
    | ⟨0, _⟩ => rfl
    | ⟨1, _⟩ => show 1024 + j.val = 1 * 1024 + j.val; omega)
theorem idx46_col (b : Fin 4096) (j : Fin 1024) : idx_main_v46 (ix2 b j) = ix2 b (col 2 j) :=
  funext fun a => Fin.ext (by
    match a with
    | ⟨0, _⟩ => rfl
    | ⟨1, _⟩ => show 2048 + j.val = 2 * 1024 + j.val; omega)
theorem idx47_col (b : Fin 4096) (j : Fin 1024) : idx_main_v47 (ix2 b j) = ix2 b (col 3 j) :=
  funext fun a => Fin.ext (by
    match a with
    | ⟨0, _⟩ => rfl
    | ⟨1, _⟩ => show 3072 + j.val = 3 * 1024 + j.val; omega)
theorem idx48_col (b : Fin 4096) (j : Fin 1024) : idx_main_v48 (ix2 b j) = ix2 b (col 0 j) :=
  funext fun a => Fin.ext (by
    match a with
    | ⟨0, _⟩ => rfl
    | ⟨1, _⟩ => show j.val = 0 * 1024 + j.val; omega)
theorem idx49_col (b : Fin 4096) (j : Fin 1024) : idx_main_v49 (ix2 b j) = ix2 b (col 1 j) :=
  funext fun a => Fin.ext (by
    match a with
    | ⟨0, _⟩ => rfl
    | ⟨1, _⟩ => show 1024 + j.val = 1 * 1024 + j.val; omega)
theorem idx50_col (b : Fin 4096) (j : Fin 1024) : idx_main_v50 (ix2 b j) = ix2 b (col 2 j) :=
  funext fun a => Fin.ext (by
    match a with
    | ⟨0, _⟩ => rfl
    | ⟨1, _⟩ => show 2048 + j.val = 2 * 1024 + j.val; omega)
theorem idx51_col (b : Fin 4096) (j : Fin 1024) : idx_main_v51 (ix2 b j) = ix2 b (col 3 j) :=
  funext fun a => Fin.ext (by
    match a with
    | ⟨0, _⟩ => rfl
    | ⟨1, _⟩ => show 3072 + j.val = 3 * 1024 + j.val; omega)

/-- The pre-activation of gate 0 at row b, column j. -/
theorem pre0 (b : Fin 4096) (j : Fin 1024) :
    val_main_v53 (F := Ideal) x0 x1 x3 x4 x5 x6 x7 x8 x9 x10 (ix2 b j)
      = preact 0 (rowOf (padCols x0) b) (rowOf x1 b) x3 (transp x5) x4 (transp x6) (asRow x7) (asRow x8)
        (padCols (val_main_v11 (F := Ideal) x3 x5)) (val_main_v23 (F := Ideal) x4 x6) (padCols x9) x10 j := by
  rw [val_main_v53_apply, val_main_v52_apply, val_main_v44_apply, val_main_v48_apply, idx44_col, idx48_col,
    gx_col, gh_col, diag_add]
  rfl
/-- The pre-activation of gate 1 at row b, column j. -/
theorem pre1 (b : Fin 4096) (j : Fin 1024) :
    val_main_v61 (F := Ideal) x0 x1 x3 x4 x5 x6 x7 x8 x9 x10 (ix2 b j)
      = preact 1 (rowOf (padCols x0) b) (rowOf x1 b) x3 (transp x5) x4 (transp x6) (asRow x7) (asRow x8)
        (padCols (val_main_v11 (F := Ideal) x3 x5)) (val_main_v23 (F := Ideal) x4 x6) (padCols x9) x10 j := by
  rw [val_main_v61_apply, val_main_v60_apply, val_main_v45_apply, val_main_v49_apply, idx45_col, idx49_col,
    gx_col, gh_col, diag_add]
  rfl
/-- The pre-activation of gate 2 at row b, column j. -/
theorem pre2 (b : Fin 4096) (j : Fin 1024) :
    val_main_v69 (F := Ideal) x0 x1 x3 x4 x5 x6 x7 x8 x9 x10 (ix2 b j)
      = preact 2 (rowOf (padCols x0) b) (rowOf x1 b) x3 (transp x5) x4 (transp x6) (asRow x7) (asRow x8)
        (padCols (val_main_v11 (F := Ideal) x3 x5)) (val_main_v23 (F := Ideal) x4 x6) (padCols x9) x10 j := by
  rw [val_main_v69_apply, val_main_v68_apply, val_main_v46_apply, val_main_v50_apply, idx46_col, idx50_col,
    gx_col, gh_col, diag_add]
  rfl
/-- The pre-activation of gate 3 at row b, column j. -/
theorem pre3 (b : Fin 4096) (j : Fin 1024) :
    val_main_v77 (F := Ideal) x0 x1 x3 x4 x5 x6 x7 x8 x9 x10 (ix2 b j)
      = preact 3 (rowOf (padCols x0) b) (rowOf x1 b) x3 (transp x5) x4 (transp x6) (asRow x7) (asRow x8)
        (padCols (val_main_v11 (F := Ideal) x3 x5)) (val_main_v23 (F := Ideal) x4 x6) (padCols x9) x10 j := by
  rw [val_main_v77_apply, val_main_v76_apply, val_main_v47_apply, val_main_v51_apply, idx47_col, idx51_col,
    gx_col, gh_col, diag_add]
  rfl

/-! The broadcast constants of the four logistic functions are the float word of one. -/
theorem one56 (i : S4096x1024.Idx) : val_main_v56 (F := Ideal) i = Ideal.ofBits .f32 0x3F800000#32 := by
  rw [val_main_v56_apply]
  rfl
theorem one58 (i : S4096x1024.Idx) : val_main_v58 (F := Ideal) i = Ideal.ofBits .f32 0x3F800000#32 := by
  rw [val_main_v58_apply]
  rfl
theorem one64 (i : S4096x1024.Idx) : val_main_v64 (F := Ideal) i = Ideal.ofBits .f32 0x3F800000#32 := by
  rw [val_main_v64_apply]
  rfl
theorem one66 (i : S4096x1024.Idx) : val_main_v66 (F := Ideal) i = Ideal.ofBits .f32 0x3F800000#32 := by
  rw [val_main_v66_apply]
  rfl
theorem one72 (i : S4096x1024.Idx) : val_main_v72 (F := Ideal) i = Ideal.ofBits .f32 0x3F800000#32 := by
  rw [val_main_v72_apply]
  rfl
theorem one74 (i : S4096x1024.Idx) : val_main_v74 (F := Ideal) i = Ideal.ofBits .f32 0x3F800000#32 := by
  rw [val_main_v74_apply]
  rfl

end Reads

/-- The reference's new cell state at (b, j) is the specification's. -/
theorem ref_c (x0 : (⟨S4096x512, .f32⟩ : BufTy).Contents (Elt Ideal)) (x1 x2 : (⟨S4096x1024, .f32⟩ : BufTy).Contents (Elt Ideal)) (x3 : (⟨S512x128, .f32⟩ : BufTy).Contents (Elt Ideal)) (x4 : (⟨S1024x128, .f32⟩ : BufTy).Contents (Elt Ideal)) (x5 x6 : (⟨S4096x128, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) (b : Fin 4096) (j : Fin 1024) :
    val_main_v81 (F := Ideal) x0 x1 x2 x3 x4 x5 x6 x7 x8 x9 x10 (ix2 b j)
      = cnext (rowOf (padCols x0) b) (rowOf x1 b) (rowOf x2 b) x3 (transp x5) x4 (transp x6) (asRow x7) (asRow x8)
          (padCols (val_main_v11 (F := Ideal) x3 x5)) (val_main_v23 (F := Ideal) x4 x6) (padCols x9) x10 j := by
  rw [val_main_v81_apply, val_main_v79_apply, val_main_v80_apply, val_main_v67_apply, val_main_v65_apply,
    val_main_v63_apply, val_main_v62_apply, pre1, val_main_v59_apply, val_main_v57_apply, val_main_v55_apply,
    val_main_v54_apply, pre0, val_main_v78_apply, pre3, one66, one64, one58, one56]
  unfold cnext
  rw [logistic_eq, logistic_eq]
  rfl

/-- The reference's new hidden state at (b, j) is the specification's. -/
theorem ref_h (x0 : (⟨S4096x512, .f32⟩ : BufTy).Contents (Elt Ideal)) (x1 x2 : (⟨S4096x1024, .f32⟩ : BufTy).Contents (Elt Ideal)) (x3 : (⟨S512x128, .f32⟩ : BufTy).Contents (Elt Ideal)) (x4 : (⟨S1024x128, .f32⟩ : BufTy).Contents (Elt Ideal)) (x5 x6 : (⟨S4096x128, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) (b : Fin 4096) (j : Fin 1024) :
    val_main_v83 (F := Ideal) x0 x1 x2 x3 x4 x5 x6 x7 x8 x9 x10 (ix2 b j)
      = hnext (rowOf (padCols x0) b) (rowOf x1 b) (rowOf x2 b) x3 (transp x5) x4 (transp x6) (asRow x7) (asRow x8)
          (padCols (val_main_v11 (F := Ideal) x3 x5)) (val_main_v23 (F := Ideal) x4 x6) (padCols x9) x10 j := by
  rw [val_main_v83_apply, val_main_v82_apply, ref_c, val_main_v75_apply, val_main_v73_apply, val_main_v71_apply,
    val_main_v70_apply, pre2, one74, one72]
  unfold hnext
  rw [logistic_eq]
  rfl

end Cert.Cell.Ref
end
-- ==== Proof.Bridge.lean ====
/-
  The two programs meet: the reference's two results, read at one entry as the cell function of the
  arguments (the hypotheses `RefC`, `RefH`), are the kernel's two result arrays, since every array the kernel's
  region reads is the corresponding plain function of the same arguments and the two programs compute the
  per-gate diagonal corrections by the same host operations.
-/
import proofs.«179790_j26680336843034_1_alg».proof.Proof.Gen.ReferenceIdeal.Read
import proofs.«179790_j26680336843034_1_alg».proof.Proof.KerHost
import proofs.«179790_j26680336843034_1_alg».proof.Proof.KerArray

set_option maxRecDepth 16384

noncomputable section

namespace Cert.Cell.Bridge

open Cert.Cell Idealize.ShloMosaic Idealize.ShloMosaic.ValueIdx Idealize.ShloMosaic.TcCoe Idealize.SL.Sem
open Cert.ReferenceIdeal Cert.ReferenceIdeal.Read

/-- The reference's cell-state result at one entry is the cell function of the arguments. -/
def RefC : Prop := ∀ (x0 : (⟨S4096x512, .f32⟩ : BufTy).Contents (Elt Ideal)) (x1 x2 : (⟨S4096x1024, .f32⟩ : BufTy).Contents (Elt Ideal)) (x3 : (⟨S512x128, .f32⟩ : BufTy).Contents (Elt Ideal)) (x4 : (⟨S1024x128, .f32⟩ : BufTy).Contents (Elt Ideal)) (x5 x6 : (⟨S4096x128, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) (b : Fin 4096) (j : Fin 1024),
    val_main_v81 (F := Ideal) x0 x1 x2 x3 x4 x5 x6 x7 x8 x9 x10 (ix2 b j)
      = cnext (rowOf (padCols x0) b) (rowOf x1 b) (rowOf x2 b) x3 (transp x5) x4 (transp x6) (asRow x7) (asRow x8)
          (padCols (val_main_v11 (F := Ideal) x3 x5)) (val_main_v23 (F := Ideal) x4 x6) (padCols x9) x10 j

/-- The reference's hidden-state result at one entry is the cell function of the arguments. -/
def RefH : Prop := ∀ (x0 : (⟨S4096x512, .f32⟩ : BufTy).Contents (Elt Ideal)) (x1 x2 : (⟨S4096x1024, .f32⟩ : BufTy).Contents (Elt Ideal)) (x3 : (⟨S512x128, .f32⟩ : BufTy).Contents (Elt Ideal)) (x4 : (⟨S1024x128, .f32⟩ : BufTy).Contents (Elt Ideal)) (x5 x6 : (⟨S4096x128, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) (b : Fin 4096) (j : Fin 1024),
    val_main_v83 (F := Ideal) x0 x1 x2 x3 x4 x5 x6 x7 x8 x9 x10 (ix2 b j)
      = hnext (rowOf (padCols x0) b) (rowOf x1 b) (rowOf x2 b) x3 (transp x5) x4 (transp x6) (asRow x7) (asRow x8)
          (padCols (val_main_v11 (F := Ideal) x3 x5)) (val_main_v23 (F := Ideal) x4 x6) (padCols x9) x10 j

/-- Both programs compute corr_x by the same host operations of the same two arguments. -/
theorem corrX_eq (x3 : (⟨S512x128, .f32⟩ : BufTy).Contents (Elt Ideal)) (x5 : (⟨S4096x128, .f32⟩ : BufTy).Contents (Elt Ideal)) :
    KerHost.corrX x3 x5 = val_main_v11 (F := Ideal) x3 x5 := rfl

/-- Both programs compute corr_h by the same host operations of the same two arguments. -/
theorem corrH_eq (x4 : (⟨S1024x128, .f32⟩ : BufTy).Contents (Elt Ideal)) (x6 : (⟨S4096x128, .f32⟩ : BufTy).Contents (Elt Ideal)) :
    KerHost.corrH x4 x6 = val_main_v23 (F := Ideal) x4 x6 := rfl

variable (m : (ℓ : Loc Cert.KernelIdeal.nD Cert.KernelIdeal.τ Cert.KernelIdeal.sig) → Buf (Elt Ideal) ℓ)

/-! ## The arrays the kernel's region reads, as functions of the arguments -/

theorem aX_eq (c : Dev Cert.KernelIdeal.nD) : KerArray.aX m c = padCols (m ((c : Thread Cert.KernelIdeal.nD Cert.KernelIdeal.τ).loc Cert.KernelIdeal.main_arg0)) := KerHost.V_v0 m c
theorem aH_eq (c : Dev Cert.KernelIdeal.nD) : KerArray.aH m c = (m ((c : Thread Cert.KernelIdeal.nD Cert.KernelIdeal.τ).loc Cert.KernelIdeal.main_arg1)) := Cert.KernelIdeal.Gen.V_main_arg1 m c
theorem aC_eq (c : Dev Cert.KernelIdeal.nD) : KerArray.aC m c = (m ((c : Thread Cert.KernelIdeal.nD Cert.KernelIdeal.τ).loc Cert.KernelIdeal.main_arg2)) := Cert.KernelIdeal.Gen.V_main_arg2 m c
theorem aUx_eq (c : Dev Cert.KernelIdeal.nD) : KerArray.aUx m c = (m ((c : Thread Cert.KernelIdeal.nD Cert.KernelIdeal.τ).loc Cert.KernelIdeal.main_arg3)) := KerHost.V_v16 m c
theorem aVxT_eq (c : Dev Cert.KernelIdeal.nD) : KerArray.aVxT m c = transp (m ((c : Thread Cert.KernelIdeal.nD Cert.KernelIdeal.τ).loc Cert.KernelIdeal.main_arg5)) := KerHost.V_v19 m c
theorem aUh_eq (c : Dev Cert.KernelIdeal.nD) : KerArray.aUh m c = (m ((c : Thread Cert.KernelIdeal.nD Cert.KernelIdeal.τ).loc Cert.KernelIdeal.main_arg4)) := KerHost.V_v17 m c
theorem aVhT_eq (c : Dev Cert.KernelIdeal.nD) : KerArray.aVhT m c = transp (m ((c : Thread Cert.KernelIdeal.nD Cert.KernelIdeal.τ).loc Cert.KernelIdeal.main_arg6)) := KerHost.V_v21 m c
theorem aBx_eq (c : Dev Cert.KernelIdeal.nD) : KerArray.aBx m c = asRow (m ((c : Thread Cert.KernelIdeal.nD Cert.KernelIdeal.τ).loc Cert.KernelIdeal.main_arg7)) := KerHost.V_v14 m c
theorem aBh_eq (c : Dev Cert.KernelIdeal.nD) : KerArray.aBh m c = asRow (m ((c : Thread Cert.KernelIdeal.nD Cert.KernelIdeal.τ).loc Cert.KernelIdeal.main_arg8)) := KerHost.V_v15 m c
theorem aCx_eq (c : Dev Cert.KernelIdeal.nD) : KerArray.aCx m c = padCols (KerHost.corrX (m ((c : Thread Cert.KernelIdeal.nD Cert.KernelIdeal.τ).loc Cert.KernelIdeal.main_arg3)) (m ((c : Thread Cert.KernelIdeal.nD Cert.KernelIdeal.τ).loc Cert.KernelIdeal.main_arg5))) := KerHost.V_v7 m c
theorem aCh_eq (c : Dev Cert.KernelIdeal.nD) : KerArray.aCh m c = KerHost.corrH (m ((c : Thread Cert.KernelIdeal.nD Cert.KernelIdeal.τ).loc Cert.KernelIdeal.main_arg4)) (m ((c : Thread Cert.KernelIdeal.nD Cert.KernelIdeal.τ).loc Cert.KernelIdeal.main_arg6)) := KerHost.V_v12 m c
theorem aDx_eq (c : Dev Cert.KernelIdeal.nD) : KerArray.aDx m c = padCols (m ((c : Thread Cert.KernelIdeal.nD Cert.KernelIdeal.τ).loc Cert.KernelIdeal.main_arg9)) := KerHost.V_v13 m c
theorem aDh_eq (c : Dev Cert.KernelIdeal.nD) : KerArray.aDh m c = (m ((c : Thread Cert.KernelIdeal.nD Cert.KernelIdeal.τ).loc Cert.KernelIdeal.main_arg10)) := Cert.KernelIdeal.Gen.V_main_arg10 m c

/-- The reference's cell-state stage of the kernel's arguments is the kernel's cell-state array. -/
theorem bridge_c (hr : RefC) (c : Dev Cert.KernelIdeal.nD) :
    val_main_v81 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) = KerArray.Gc m c := by
  funext i
  obtain ⟨b, j, rfl⟩ : ∃ (b : Fin 4096) (j : Fin 1024), i = ix2 b j := ⟨i 0, i 1, eq_ix2 i⟩
  rw [KerArray.Gc_ix2, aX_eq, aH_eq, aC_eq, aUx_eq, aVxT_eq, aUh_eq, aVhT_eq, aBx_eq, aBh_eq, aCx_eq, aCh_eq, aDx_eq, aDh_eq,
    corrX_eq, corrH_eq]
  exact hr _ _ _ _ _ _ _ _ _ _ _ b j

/-- The reference's hidden-state stage of the kernel's arguments is the kernel's hidden-state array. -/
theorem bridge_h (hr : RefH) (c : Dev Cert.KernelIdeal.nD) :
    val_main_v83 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) = KerArray.Gh m c := by
  funext i
  obtain ⟨b, j, rfl⟩ : ∃ (b : Fin 4096) (j : Fin 1024), i = ix2 b j := ⟨i 0, i 1, eq_ix2 i⟩
  rw [KerArray.Gh_ix2, aX_eq, aH_eq, aC_eq, aUx_eq, aVxT_eq, aUh_eq, aVhT_eq, aBx_eq, aBh_eq, aCx_eq, aCh_eq, aDx_eq, aDh_eq,
    corrX_eq, corrH_eq]
  exact hr _ _ _ _ _ _ _ _ _ _ _ b j

end Cert.Cell.Bridge

end
-- ==== Proof.lean ====
/-
  One step of a low-rank long short-term memory cell, tiled over 256-row blocks of the batch, against its
  plain reference: both programs, read over the extended reals, return the same new hidden state and the
  same new cell state.

  The kernel pads the input to the hidden width with zeros, computes the two per-gate diagonal corrections and
  re-lays the weights on the host, and then, per tile, forms the four gate pre-activations
      ((x Ux) VxT - x * corr_x + b_x) + ((h Uh) VhT - h * corr_h + b_h) + (dia_x * x + dia_h * h)
  and from them c' = sigma(f) * c + sigma(i) * tanh(n), h' = sigma(o) * tanh(c').  The reference computes the same
  on the whole batch at once, padding the PRODUCTS x * corr_x and dia_x * x instead of their factors, and spells
  the logistic function as 1 / (1 + exp(-z)).  Over the extended reals a change of float format is the identity,
  both matrix products are the same finite sums, zero times zero is the padding zero, and the logistic function
  is that quotient; no law that needs finiteness is used, so the precondition is never opened.

  The parts: the cell function (CellSpec), the kernel body's stores as that function of a tile's row
  (KerPayload), the tiles as rows of the arrays and the sixteen tiles covering them (KerArray), the arrays the
  region reads as functions of the arguments (KerHost), the reference's results as that function (RefSide),
  and the two sides set beside each other (Bridge).
-/
import proofs.«179790_j26680336843034_1_alg».proof.Defs
import proofs.«179790_j26680336843034_1_alg».proof.Proof.Gen.Kernel
import proofs.«179790_j26680336843034_1_alg».proof.Proof.Gen.Kernel.Skeleton
import proofs.«179790_j26680336843034_1_alg».proof.Proof.Gen.Kernel.Launch
import proofs.«179790_j26680336843034_1_alg».proof.Proof.Gen.Kernel.Points
import proofs.«179790_j26680336843034_1_alg».proof.Proof.Gen.Kernel.Frame
import proofs.«179790_j26680336843034_1_alg».proof.Proof.Gen.KernelIdeal
import proofs.«179790_j26680336843034_1_alg».proof.Proof.Gen.KernelIdeal.Skeleton
import proofs.«179790_j26680336843034_1_alg».proof.Proof.Gen.KernelIdeal.Launch
import proofs.«179790_j26680336843034_1_alg».proof.Proof.Gen.KernelIdeal.Points
import proofs.«179790_j26680336843034_1_alg».proof.Proof.Gen.KernelIdeal.Frame
import proofs.«179790_j26680336843034_1_alg».proof.Proof.Gen.ReferenceIdeal
import proofs.«179790_j26680336843034_1_alg».proof.Proof.Gen.Pre_finite_inputs
import proofs.«179790_j26680336843034_1_alg».proof.Proof.Gen.KernelIdeal.Value
import proofs.«179790_j26680336843034_1_alg».proof.Proof.Gen.ReferenceIdeal.Run
import proofs.«179790_j26680336843034_1_alg».proof.Proof.Gen.ReferenceIdeal.Read
import proofs.«179790_j26680336843034_1_alg».proof.Proof.CellSpec
import proofs.«179790_j26680336843034_1_alg».proof.Proof.KerPayload
import proofs.«179790_j26680336843034_1_alg».proof.Proof.KerHost
import proofs.«179790_j26680336843034_1_alg».proof.Proof.KerArray
import proofs.«179790_j26680336843034_1_alg».proof.Proof.RefSide
import proofs.«179790_j26680336843034_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree, the idealized kernel ends with its two result arrays at the cell function of the
    arrays its region reads, the reference with its two results at the cell function of the arguments, and these
    are the same arrays. -/
theorem algebraic : Cert.algebraic_KernelIdeal_ReferenceIdeal := by
  intro m ρ m' ρ' _ hagree
  refine ⟨fun c => Cert.Cell.KerArray.Gh m c, fun c => Cert.Cell.KerArray.Gc m c,
    Cert.Cell.KerArray.run m ρ Cert.Cell.Ker.pay_c Cert.Cell.Ker.pay_h, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v83_eq, h0, h1, h2, h3, h4, h5, h6, h7, h8, h9, h10]
    exact Cert.Cell.Bridge.bridge_h m Cert.Cell.Ref.ref_h c
  · obtain ⟨h0, h1, h2, h3, h4, h5, h6, h7, h8, h9, h10⟩ := hagree c
    rw [Cert.ReferenceIdeal.Read.val_main_v81_eq, h0, h1, h2, h3, h4, h5, h6, h7, h8, h9, h10]
    exact Cert.Cell.Bridge.bridge_c m Cert.Cell.Ref.ref_c c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
